-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x512 : Shape := ⟨2, ![64, 512]⟩
abbrev S768x6 : Shape := ⟨2, ![768, 6]⟩
abbrev S6 : Shape := ⟨1, ![6]⟩
abbrev S768x768 : Shape := ⟨2, ![768, 768]⟩
abbrev S768 : Shape := ⟨1, ![768]⟩
abbrev S768x3 : Shape := ⟨2, ![768, 3]⟩
abbrev S3 : Shape := ⟨1, ![3]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x6 : S_.BroadcastsInDim S768x6 (![] : Fin 0 → Fin S768x6.rank)
  reducesTo_S768x6_S_d0_1 : S768x6.ReducesTo [0, 1] S_
  bcast_S_S6 : S_.BroadcastsInDim S6 (![] : Fin 0 → Fin S6.rank)
  reducesTo_S6_S_d0 : S6.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x3 : S_.BroadcastsInDim S768x3 (![] : Fin 0 → Fin S768x3.rank)
  reducesTo_S768x3_S_d0_1 : S768x3.ReducesTo [0, 1] S_
  bcast_S_S3 : S_.BroadcastsInDim S3 (![] : Fin 0 → Fin S3.rank)
  reducesTo_S3_S_d0 : S3.ReducesTo [0] S_
  bcast_S_S64x512 : S_.BroadcastsInDim S64x512 (![] : Fin 0 → Fin S64x512.rank)
  reducesTo_S64x512_S_d0_1 : S64x512.ReducesTo [0, 1] S_

variable [Facts]

def fn_part2 {F : FTy → Type} [FloatOps F] (main_arg1 : IVec S64x512 32) (main_v33 : IVec S_ 1) : IVec S_ 1 :=
  let main_c_12 : IVec S_ 32 := constantI S_ 32 0#32
  let main_v34 : IVec S64x512 32 := broadcastInDim S64x512 ![] bcast_S_S64x512 main_c_12
  let main_v35 : IVec S64x512 1 := cmpi .eq main_arg1 main_v34
  let main_c_13 : IVec S_ 32 := constantI S_ 32 1#32
  let main_v36 : IVec S64x512 32 := broadcastInDim S64x512 ![] bcast_S_S64x512 main_c_13
  let main_v37 : IVec S64x512 1 := cmpi .eq main_arg1 main_v36
  let main_v38 : IVec S64x512 1 := ori main_v35 main_v37
  let main_c_14 : IVec S_ 1 := constantI S_ 1 1#1
  let main_v39 : IVec S_ 1 := (fun x v => Host.reduce IntOp.andi x v reducesTo_S64x512_S_d0_1 h_S_) main_v38 main_c_14
  let main_v40 : IVec S_ 1 := andi main_v33 main_v39
  main_v40

def fn_part1 {F : FTy → Type} [FloatOps F] (main_arg1 : IVec S64x512 32) (main_arg5 : FVec F S768 .f32) (main_arg6 : FVec F S768x3 .f32) (main_arg7 : FVec F S3 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x3 .f32 := Host.absf main_arg6
  let main_cst_8 : FVec F S_ .f32 := constant S_ .f32 0x7F800000#32
  let main_v25 : FVec F S768x3 .f32 := broadcastInDim S768x3 ![] bcast_S_S768x3 main_cst_8
  let main_v26 : IVec S768x3 1 := cmpf .olt main_v24 main_v25
  let main_c_9 : IVec S_ 1 := constantI S_ 1 1#1
  let main_v27 : IVec S_ 1 := (fun x v => Host.reduce IntOp.andi x v reducesTo_S768x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg1 main_v33

def fn {F : FTy → Type} [FloatOps F] (main_arg0 : FVec F S64x512x768 .f32) (main_arg1 : IVec S64x512 32) (main_arg2 : FVec F S768x6 .f32) (main_arg3 : FVec F S6 .f32) (main_arg4 : FVec F S768x768 .f32) (main_arg5 : FVec F S768 .f32) (main_arg6 : FVec F S768x3 .f32) (main_arg7 : FVec F S3 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S768x6 .f32 := Host.absf main_arg2
  let main_cst_0 : FVec F S_ .f32 := constant S_ .f32 0x7F800000#32
  let main_v5 : FVec F S768x6 .f32 := broadcastInDim S768x6 ![] bcast_S_S768x6 main_cst_0
  let main_v6 : IVec S768x6 1 := cmpf .olt main_v4 main_v5
  let main_c_1 : IVec S_ 1 := constantI S_ 1 1#1
  let main_v7 : IVec S_ 1 := (fun x v => Host.reduce IntOp.andi x v reducesTo_S768x6_S_d0_1 h_S_) main_v6 main_c_1
  let main_v8 : IVec S_ 1 := andi main_v3 main_v7
  let main_v9 : FVec F S6 .f32 := Host.absf main_arg3
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg1 main_arg5 main_arg6 main_arg7 main_v13 main_v16
-- ==== Kernel.lean ====
abbrev S64x512x768 : Shape := ⟨3, ![64, 512, 768]⟩
abbrev S64x512 : Shape := ⟨2, ![64, 512]⟩
abbrev S768x6 : Shape := ⟨2, ![768, 6]⟩
abbrev S6 : Shape := ⟨1, ![6]⟩
abbrev S768x768 : Shape := ⟨2, ![768, 768]⟩
abbrev S768 : Shape := ⟨1, ![768]⟩
abbrev S768x3 : Shape := ⟨2, ![768, 3]⟩
abbrev S3 : Shape := ⟨1, ![3]⟩
abbrev S_ : Shape := ⟨0, ![]⟩
abbrev S64x1x512 : Shape := ⟨3, ![64, 1, 512]⟩
abbrev S64x6x512 : Shape := ⟨3, ![64, 6, 512]⟩
abbrev S64x1x768 : Shape := ⟨3, ![64, 1, 768]⟩
abbrev S4x512x768 : Shape := ⟨3, ![4, 512, 768]⟩
abbrev S4x1x512 : Shape := ⟨3, ![4, 1, 512]⟩
abbrev S4x6x512 : Shape := ⟨3, ![4, 6, 512]⟩
abbrev S4x1x768 : Shape := ⟨3, ![4, 1, 768]⟩
abbrev S4x512 : Shape := ⟨2, ![4, 512]⟩
abbrev S2048x768 : Shape := ⟨2, ![2048, 768]⟩
abbrev S2048x6 : Shape := ⟨2, ![2048, 6]⟩
abbrev S4x512x6 : Shape := ⟨3, ![4, 512, 6]⟩
abbrev S4x512x512 : Shape := ⟨3, ![4, 512, 512]⟩
abbrev S1x6x1 : Shape := ⟨3, ![1, 6, 1]⟩
abbrev S4x512x1 : Shape := ⟨3, ![4, 512, 1]⟩
abbrev S4x768 : Shape := ⟨2, ![4, 768]⟩
abbrev S64x512x6 : Shape := ⟨3, ![64, 512, 6]⟩
abbrev S64x768 : Shape := ⟨2, ![64, 768]⟩
abbrev S1x768 : Shape := ⟨2, ![1, 768]⟩
abbrev S64x3 : Shape := ⟨2, ![64, 3]⟩
abbrev S1x3 : Shape := ⟨2, ![1, 3]⟩

abbrev nBuf : Space → Nat
  | .hbm => 35
  | .vmem => 10
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S768x6, .f32⟩
  | .hbm, ⟨3, _⟩ => ⟨S6, .f32⟩
  | .hbm, ⟨4, _⟩ => ⟨S768x768, .f32⟩
  | .hbm, ⟨5, _⟩ => ⟨S768, .f32⟩
  | .hbm, ⟨6, _⟩ => ⟨S768x3, .f32⟩
  | .hbm, ⟨7, _⟩ => ⟨S3, .f32⟩
  | .hbm, ⟨8, _⟩ => ⟨S_, .i32⟩
  | .hbm, ⟨9, _⟩ => ⟨S_, .i32⟩
  | .hbm, ⟨10, _⟩ => ⟨S64x512, .i32⟩
  | .hbm, ⟨11, _⟩ => ⟨S_, .i32⟩
  | .hbm, ⟨12, _⟩ => ⟨S64x512, .i32⟩
  | .hbm, ⟨13, _⟩ => ⟨S64x512, .i32⟩
  | .hbm, ⟨14, _⟩ => ⟨S_, .i32⟩
  | .hbm, ⟨15, _⟩ => ⟨S64x512, .i32⟩
  | .hbm, ⟨16, _⟩ => ⟨S64x512, .i1⟩
  | .hbm, ⟨17, _⟩ => ⟨S_, .i32⟩
  | .hbm, ⟨18, _⟩ => ⟨S_, .i32⟩
  | .hbm, ⟨19, _⟩ => ⟨S64x512, .i32⟩
  | .hbm, ⟨20, _⟩ => ⟨S64x512, .i32⟩
  | .hbm, ⟨21, _⟩ => ⟨S64x1x512, .i32⟩
  | .hbm, ⟨22, _⟩ => ⟨S64x6x512, .f32⟩
  | .hbm, ⟨23, _⟩ => ⟨S64x1x768, .f32⟩
  | .hbm, ⟨24, _⟩ => ⟨S64x512x6, .f32⟩
  | .hbm, ⟨25, _⟩ => ⟨S64x768, .f32⟩
  | .hbm, ⟨26, _⟩ => ⟨S64x768, .f32⟩
  | .hbm, ⟨27, _⟩ => ⟨S1x768, .f32⟩
  | .hbm, ⟨28, _⟩ => ⟨S64x768, .f32⟩
  | .hbm, ⟨29, _⟩ => ⟨S64x768, .f32⟩
  | .hbm, ⟨30, _⟩ => ⟨S64x768, .f32⟩
  | .hbm, ⟨31, _⟩ => ⟨S64x3, .f32⟩
  | .hbm, ⟨32, _⟩ => ⟨S1x3, .f32⟩
  | .hbm, ⟨33, _⟩ => ⟨S64x3, .f32⟩
  | .hbm, ⟨34, _⟩ => ⟨S64x3, .f32⟩
  | .local _ .vmem, ⟨0, _⟩ => ⟨S4x512x768, .f32⟩
  | .local _ .vmem, ⟨1, _⟩ => ⟨S4x512x768, .f32⟩
  | .local _ .vmem, ⟨2, _⟩ => ⟨S4x1x512, .i32⟩
  | .local _ .vmem, ⟨3, _⟩ => ⟨S4x1x512, .i32⟩
  | .local _ .vmem, ⟨4, _⟩ => ⟨S768x6, .f32⟩
  | .local _ .vmem, ⟨5, _⟩ => ⟨S6, .f32⟩
  | .local _ .vmem, ⟨6, _⟩ => ⟨S4x6x512, .f32⟩
  | .local _ .vmem, ⟨7, _⟩ => ⟨S4x6x512, .f32⟩
  | .local _ .vmem, ⟨8, _⟩ => ⟨S4x1x768, .f32⟩
  | .local _ .vmem, ⟨9, _⟩ => ⟨S4x1x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S_S64x512 : S_.BroadcastsInDim S64x512 (![] : Fin 0 → Fin S64x512.rank)
  shapeCasts_S64x512_S64x1x512 : S64x512.ShapeCasts S64x1x512
  inb_S4x512x768_S4x512x768_0_0_0 : ∀ a, (![0, 0, 0] : Fin 3 → Nat) a + S4x512x768.size a ≤ S4x512x768.size a
  h_S4x512x768 : 0 < S4x512x768.numel
  inb_S4x1x512_S4x1x512_0_0_0 : ∀ a, (![0, 0, 0] : Fin 3 → Nat) a + S4x1x512.size a ≤ S4x1x512.size a
  h_S4x1x512 : 0 < S4x1x512.numel
  shapeCasts_S4x1x512_S4x512 : S4x1x512.ShapeCasts S4x512
  bitsLt_bf16_f32 : FTy.bits .bf16 < FTy.bits .f32
  inb_S768x6_S768x6_0_0 : ∀ a, (![0, 0] : Fin 2 → Nat) a + S768x6.size a ≤ S768x6.size a
  h_S768x6 : 0 < S768x6.numel
  shapeCasts_S4x512x768_S2048x768 : S4x512x768.ShapeCasts S2048x768
  shapeCasts_S2048x6_S4x512x6 : S2048x6.ShapeCasts S4x512x6
  iota_S4x512x512_d1_w32 : S4x512x512.Iotas .tc 32 [1]
  shapeCasts_S4x512_S4x1x512 : S4x512.ShapeCasts S4x1x512
  broadcasts_S4x1x512_S4x512x512 : S4x1x512.Broadcasts S4x512x512
  natLt_1_32 : 1 < 32
  inb_S6_S6_0 : ∀ a, (![0] : Fin 1 → Nat) a + S6.size a ≤ S6.size a
  h_S6 : 0 < S6.numel
  shapeCasts_S6_S1x6x1 : S6.ShapeCasts S1x6x1
  broadcasts_S1x6x1_S4x6x512 : S1x6x1.Broadcasts S4x6x512
  inb_S4x6x512_S4x6x512_0_0_0 : ∀ a, (![0, 0, 0] : Fin 3 → Nat) a + S4x6x512.size a ≤ S4x6x512.size a
  h_S4x6x512 : 0 < S4x6x512.numel
  shapeCasts_S4x512_S4x512x1 : S4x512.ShapeCasts S4x512x1
  broadcasts_S4x512x1_S4x512x768 : S4x512x1.Broadcasts S4x512x768
  reduces_S4x512x768_S4x768 : S4x512x768.Reduces [1] S4x768
  shapeCasts_S4x768_S4x1x768 : S4x768.ShapeCasts S4x1x768
  inb_S4x1x768_S4x1x768_0_0_0 : ∀ a, (![0, 0, 0] : Fin 3 → Nat) a + S4x1x768.size a ≤ S4x1x768.size a
  h_S4x1x768 : 0 < S4x1x768.numel
  transposes_S64x6x512_S64x512x6_0_2_1 : S64x6x512.Transposes [0, 2, 1] S64x512x6
  shapeCasts_S64x1x768_S64x768 : S64x1x768.ShapeCasts S64x768
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  dot_S2048x768_S768x6_S2048x6_1_0_0_1_n_n_wf : DotDims.WF S2048x768 S768x6 S2048x6 [1] [0] [0] [1] [] []
  dot_S4x512x6_S4x512x512_S4x6x512_1_2_2_1_0_0_wf : DotDims.WF S4x512x6 S4x512x512 S4x6x512 [1] [2] [2] [1] [0] [0]
  dot_S64x768_S768x768_S64x768_1_0_0_1_n_n_wf : DotDims.WF S64x768 S768x768 S64x768 [1] [0] [0] [1] [] []
  dot_S64x768_S768x3_S64x3_1_0_0_1_n_n_wf : DotDims.WF S64x768 S768x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S64x512x768.size a
  hwx0_0 : ∀ i : grid0.Coords, EltTy.bits .f32 = 32 ∨ (Rect.block (s := S64x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512.size a ≤ S64x1x512.size a
  hwx0_1 : ∀ i : grid0.Coords, EltTy.bits .i32 = 32 ∨ (Rect.block (s := S64x1x512) S4x1x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x6.size a ≤ S768x6.size a
  hwx0_2 : ∀ i : grid0.Coords, EltTy.bits .f32 = 32 ∨ (Rect.block (s := S768x6) S768x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6.size a ≤ S6.size a
  hwx0_3 : ∀ i : grid0.Coords, EltTy.bits .f32 = 32 ∨ (Rect.block (s := S6) S6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x6x512.size a ≤ S64x6x512.size a
  hwx0_4 : ∀ i : grid0.Coords, EltTy.bits .f32 = 32 ∨ (Rect.block (s := S64x6x512) S4x6x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x768.size a ≤ S64x1x768.size a
  hwx0_5 : ∀ i : grid0.Coords, EltTy.bits .f32 = 32 ∨ (Rect.block (s := S64x1x768) S4x1x768.size (cc0_transform_5 i) (hinb0_5 i)).WholeWords (EltTy.packing .f32)

variable [Facts₀]

def dot_S2048x768_S768x6_S2048x6_1_0_0_1_n_n : DotDims S2048x768 S768x6 S2048x6 where
  lhsContracting := [1]
  rhsContracting := [0]
  lhsNonContracting := [0]
  rhsNonContracting := [1]
  lhsBatch := []
  rhsBatch := []
  wf := dot_S2048x768_S768x6_S2048x6_1_0_0_1_n_n_wf
def dot_S4x512x6_S4x512x512_S4x6x512_1_2_2_1_0_0 : DotDims S4x512x6 S4x512x512 S4x6x512 where
  lhsContracting := [1]
  rhsContracting := [2]
  lhsNonContracting := [2]
  rhsNonContracting := [1]
  lhsBatch := [0]
  rhsBatch := [0]
  wf := dot_S4x512x6_S4x512x512_S4x6x512_1_2_2_1_0_0_wf
def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768_S768x3_S64x3_1_0_0_1_n_n : DotDims S64x768 S768x3 S64x3 where
  lhsContracting := [1]
  rhsContracting := [0]
  lhsNonContracting := [0]
  rhsNonContracting := [1]
  lhsBatch := []
  rhsBatch := []
  wf := dot_S64x768_S768x3_S64x3_1_0_0_1_n_n_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S4x6x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S4x1x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x512 : Shape := ⟨2, ![64, 512]⟩
abbrev S768x6 : Shape := ⟨2, ![768, 6]⟩
abbrev S6 : Shape := ⟨1, ![6]⟩
abbrev S768x768 : Shape := ⟨2, ![768, 768]⟩
abbrev S768 : Shape := ⟨1, ![768]⟩
abbrev S768x3 : Shape := ⟨2, ![768, 3]⟩
abbrev S3 : Shape := ⟨1, ![3]⟩
abbrev S_ : Shape := ⟨0, ![]⟩
abbrev S64 : Shape := ⟨1, ![64]⟩
abbrev S64x1 : Shape := ⟨2, ![64, 1]⟩
abbrev S64x512x1 : Shape := ⟨3, ![64, 512, 1]⟩
abbrev S64x512x2 : Shape := ⟨3, ![64, 512, 2]⟩
abbrev S64x512x6 : Shape := ⟨3, ![64, 512, 6]⟩
abbrev S1x1x6 : Shape := ⟨3, ![1, 1, 6]⟩
abbrev S64x1x768 : Shape := ⟨3, ![64, 1, 768]⟩
abbrev S64x768 : Shape := ⟨2, ![64, 768]⟩
abbrev S1x768 : Shape := ⟨2, ![1, 768]⟩
abbrev S64x3 : Shape := ⟨2, ![64, 3]⟩
abbrev S1x3 : Shape := ⟨2, ![1, 3]⟩

abbrev nBuf : Space → Nat
  | .hbm => 59
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S768x6, .f32⟩
  | .hbm, ⟨3, _⟩ => ⟨S6, .f32⟩
  | .hbm, ⟨4, _⟩ => ⟨S768x768, .f32⟩
  | .hbm, ⟨5, _⟩ => ⟨S768, .f32⟩
  | .hbm, ⟨6, _⟩ => ⟨S768x3, .f32⟩
  | .hbm, ⟨7, _⟩ => ⟨S3, .f32⟩
  | .hbm, ⟨8, _⟩ => ⟨S_, .i32⟩
  | .hbm, ⟨9, _⟩ => ⟨S64x512, .i32⟩
  | .hbm, ⟨10, _⟩ => ⟨S64x512, .i1⟩
  | .hbm, ⟨11, _⟩ => ⟨S_, .i32⟩
  | .hbm, ⟨12, _⟩ => ⟨S_, .i32⟩
  | .hbm, ⟨13, _⟩ => ⟨S64x512, .i32⟩
  | .hbm, ⟨14, _⟩ => ⟨S_, .i32⟩
  | .hbm, ⟨15, _⟩ => ⟨S64x512, .i32⟩
  | .hbm, ⟨16, _⟩ => ⟨S64x512, .i32⟩
  | .hbm, ⟨17, _⟩ => ⟨S_, .i32⟩
  | .hbm, ⟨18, _⟩ => ⟨S_, .i32⟩
  | .hbm, ⟨19, _⟩ => ⟨S64x512, .i32⟩
  | .hbm, ⟨20, _⟩ => ⟨S64x512, .i32⟩
  | .hbm, ⟨21, _⟩ => ⟨S64, .i32⟩
  | .hbm, ⟨22, _⟩ => ⟨S64x1, .i32⟩
  | .hbm, ⟨23, _⟩ => ⟨S64x512, .i32⟩
  | .hbm, ⟨24, _⟩ => ⟨S_, .f32⟩
  | .hbm, ⟨25, _⟩ => ⟨S64x512x768, .f32⟩
  | .hbm, ⟨26, _⟩ => ⟨S_, .i32⟩
  | .hbm, ⟨27, _⟩ => ⟨S64x512, .i32⟩
  | .hbm, ⟨28, _⟩ => ⟨S64x512, .i1⟩
  | .hbm, ⟨29, _⟩ => ⟨S_, .i32⟩
  | .hbm, ⟨30, _⟩ => ⟨S64x512, .i32⟩
  | .hbm, ⟨31, _⟩ => ⟨S64x512, .i32⟩
  | .hbm, ⟨32, _⟩ => ⟨S64x512, .i32⟩
  | .hbm, ⟨33, _⟩ => ⟨S_, .i32⟩
  | .hbm, ⟨34, _⟩ => ⟨S64x512, .i32⟩
  | .hbm, ⟨35, _⟩ => ⟨S64x512, .i1⟩
  | .hbm, ⟨36, _⟩ => ⟨S_, .i32⟩
  | .hbm, ⟨37, _⟩ => ⟨S64x512, .i32⟩
  | .hbm, ⟨38, _⟩ => ⟨S64x512, .i32⟩
  | .hbm, ⟨39, _⟩ => ⟨S64x512, .i32⟩
  | .hbm, ⟨40, _⟩ => ⟨S64x512x1, .i32⟩
  | .hbm, ⟨41, _⟩ => ⟨S64x512x1, .i32⟩
  | .hbm, ⟨42, _⟩ => ⟨S64x512x2, .i32⟩
  | .hbm, ⟨43, _⟩ => ⟨S64x512x768, .f32⟩
  | .hbm, ⟨44, _⟩ => ⟨S64x512x6, .f32⟩
  | .hbm, ⟨45, _⟩ => ⟨S1x1x6, .f32⟩
  | .hbm, ⟨46, _⟩ => ⟨S64x512x6, .f32⟩
  | .hbm, ⟨47, _⟩ => ⟨S64x512x6, .f32⟩
  | .hbm, ⟨48, _⟩ => ⟨S64x1x768, .f32⟩
  | .hbm, ⟨49, _⟩ => ⟨S64x768, .f32⟩
  | .hbm, ⟨50, _⟩ => ⟨S64x768, .f32⟩
  | .hbm, ⟨51, _⟩ => ⟨S1x768, .f32⟩
  | .hbm, ⟨52, _⟩ => ⟨S64x768, .f32⟩
  | .hbm, ⟨53, _⟩ => ⟨S64x768, .f32⟩
  | .hbm, ⟨54, _⟩ => ⟨S64x768, .f32⟩
  | .hbm, ⟨55, _⟩ => ⟨S64x3, .f32⟩
  | .hbm, ⟨56, _⟩ => ⟨S1x3, .f32⟩
  | .hbm, ⟨57, _⟩ => ⟨S64x3, .f32⟩
  | .hbm, ⟨58, _⟩ => ⟨S64x3, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S_S64x512x768 : S_.BroadcastsInDim S64x512x768 (![] : Fin 0 → Fin S64x512x768.rank)
  bcast_S64x512_S64x512x1_0_1 : S64x512.BroadcastsInDim S64x512x1 (![0, 1] : Fin 2 → Fin S64x512x1.rank)
  concatenates_S64x512x1_S64x512x1_S64x512x2_d2 : Shape.Concatenates [S64x512x1, S64x512x1] S64x512x2 2
  bcast_S6_S1x1x6_2 : S6.BroadcastsInDim S1x1x6 (![2] : Fin 1 → Fin S1x1x6.rank)
  bcast_S1x1x6_S64x512x6_0_1_2 : S1x1x6.BroadcastsInDim S64x512x6 (![0, 1, 2] : Fin 3 → Fin S64x512x6.rank)
  slices_S64x512x768_S64x1x768_0_0_0 : S64x512x768.Slices ![0, 0, 0] S64x1x768
  shapeCasts_S64x1x768_S64x768 : S64x1x768.ShapeCasts S64x768
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S64x512x768_S64x512x2_S64x512x768_2_01_01_2_wf : ScatterDims.WF S64x512x768 S64x512x2 S64x512x768 [2] [0, 1] [0, 1] 2
  dot_S64x512x768_S768x6_S64x512x6_2_0_01_1_n_n_wf : DotDims.WF S64x512x768 S768x6 S64x512x6 [2] [0] [0, 1] [1] [] []
  dot_S64x768_S768x768_S64x768_1_0_0_1_n_n_wf : DotDims.WF S64x768 S768x768 S64x768 [1] [0] [0] [1] [] []
  dot_S64x768_S768x3_S64x3_1_0_0_1_n_n_wf : DotDims.WF S64x768 S768x3 S64x3 [1] [0] [0] [1] [] []

variable [Facts₀]

def scatter_S64x512x768_S64x512x2_S64x512x768_2_01_01_2 : ScatterDims S64x512x768 S64x512x2 S64x512x768 where
  updateWindowDims := [2]
  insertedWindowDims := [0, 1]
  scatterDimsToOperandDims := [0, 1]
  indexVectorDim := 2
  wf := scatter_S64x512x768_S64x512x2_S64x512x768_2_01_01_2_wf
def dot_S64x512x768_S768x6_S64x512x6_2_0_01_1_n_n : DotDims S64x512x768 S768x6 S64x512x6 where
  lhsContracting := [2]
  rhsContracting := [0]
  lhsNonContracting := [0, 1]
  rhsNonContracting := [1]
  lhsBatch := []
  rhsBatch := []
  wf := dot_S64x512x768_S768x6_S64x512x6_2_0_01_1_n_n_wf
def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768_S768x3_S64x3_1_0_0_1_n_n : DotDims S64x768 S768x3 S64x3 where
  lhsContracting := [1]
  rhsContracting := [0]
  lhsNonContracting := [0]
  rhsNonContracting := [1]
  lhsBatch := []
  rhsBatch := []
  wf := dot_S64x768_S768x3_S64x3_1_0_0_1_n_n_wf

class Facts : Prop extends Facts₀ where

variable [Facts]
-- ==== Proof.PreDecode.lean ====
/-
  What the precondition says of the mask.

  The precondition is a conjunction of "all entries" tests: each float input finite, and every entry of the
  mask equal to zero or to one.  Only the last conjunct is used by the value proof: a mask entry is the word 0 or
  the word 1.
-/
import proofs.«430234_j70746701300093_3_alg».proof.Pre_finite_inputs
import proofs.«430234_j70746701300093_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Idealize.ShloMosaic Idealize.ShloMosaic.ValueIdx Cert.Pre_finite_inputs Cert.Pre_finite_inputs.Gen

/-- Under the precondition every mask entry is zero or one. -/
theorem mask_of_pre (a0 : FVec Ideal S64x512x768 .f32) (a1 : IVec S64x512 32) (a2 : FVec Ideal S768x6 .f32)
    (a3 : FVec Ideal S6 .f32) (a4 : FVec Ideal S768x768 .f32) (a5 : FVec Ideal S768 .f32) (a6 : FVec Ideal S768x3 .f32)
    (a7 : FVec Ideal S3 .f32)
    (h : Cert.Pre_finite_inputs.fn (F := Ideal) a0 a1 a2 a3 a4 a5 a6 a7 = fun _ => 1#1) (b : Fin 64) (j : Fin 512) :
    a1 (ix2 b j) = 0#32 ∨ a1 (ix2 b j) = 1#32 := by
  -- The scalar result at its one index is 1.
  have h0 := congrFun h ix0
  dsimp only [fn, fn_part1, fn_part2] at h0
  -- The result is a conjunction whose last conjunct is the "all entries" test of the mask.
  obtain ⟨-, h39⟩ := IntOp.andi_eq_one.1 h0
  -- The scalar shape has one index, so the test holds at every entry.
  haveI : Subsingleton S_.Idx := ⟨fun a b => funext fun d => d.elim0⟩
  have hp := Host.reduce_andi_all _ _ _ _ _ h39 (ix2 b j)
  -- At an entry the test is "equal to 0 or equal to 1".
  rcases IntOp.ori_eq_one.1 hp with hz | ho
  · exact Or.inl (IntOp.cmpi_eq.1 hz)
  · exact Or.inr (IntOp.cmpi_eq.1 ho)

end Cert.Pre_finite_inputs.Decode

end
-- ==== Proof.Spec.lean ====
/-
  The shared vocabulary of this certificate's value proof, over the library only.

  Both programs route source row `j` of batch `b` to the slot `tgt b j`: the running count of ones in the
  mask up to and including `j`, less one, where the mask is one, and the out-of-range slot 512 where it is not.
  `tgtOf` is that computation as both programs spell it (a windowed integer sum, a subtraction, a compare and
  a select).  `head` is the pooler-and-polarity tail both programs apply to row 0 of the compacted tensor:
  `tanh (r · W_pool + b_pool) · W_apc + b_apc`.
-/
import Idealize.ShloMosaic.PureOps
import Idealize.ShloMosaic.PureOps.Ideal
import Idealize.ShloMosaic.Lib.ValueIdx

noncomputable section

namespace Cert.Compact

open Idealize.ShloMosaic Idealize.ShloMosaic.ValueIdx

abbrev S_ : Shape := ⟨0, ![]⟩
abbrev S64x512 : Shape := ⟨2, ![64, 512]⟩
abbrev S64x512x2 : Shape := ⟨3, ![64, 512, 2]⟩
abbrev S64x512x768 : Shape := ⟨3, ![64, 512, 768]⟩
abbrev S64x768 : Shape := ⟨2, ![64, 768]⟩
abbrev S768x768 : Shape := ⟨2, ![768, 768]⟩
abbrev S768 : Shape := ⟨1, ![768]⟩
abbrev S1x768 : Shape := ⟨2, ![1, 768]⟩
abbrev S768x3 : Shape := ⟨2, ![768, 3]⟩
abbrev S3 : Shape := ⟨1, ![3]⟩
abbrev S1x3 : Shape := ⟨2, ![1, 3]⟩
abbrev S64x3 : Shape := ⟨2, ![64, 3]⟩

/-- The running count of the mask along the sequence axis: element `(b, j)` is the sum of the mask's
    entries `(b, 0) … (b, j)`, as 32-bit words. -/
def csum (vid : IVec S64x512 32) : IVec S64x512 32 :=
  Host.reduceWindow IntOp.addi ![1, 512] ![1, 1] ![0, 511] ![0, 0] vid
    (broadcastInDim S_ ![] (by decide) (constantI S_ 32 0#32)) (by decide) (by decide)

/-- The slot each source row is sent to: the running count less one where the mask is one, 512 elsewhere. -/
def tgtOf (vid : IVec S64x512 32) : IVec S64x512 32 :=
  select (cmpi .eq vid (broadcastInDim S64x512 ![] (by decide) (constantI S_ 32 1#32)))
    (subi (csum vid) (broadcastInDim S64x512 ![] (by decide) (constantI S_ 32 1#32)))
    (broadcastInDim S64x512 ![] (by decide) (id (constantI S_ 32 512#32)))

/-- The pooler's matrix product: rows of `r` against `W_pool`. -/
def dPool : DotDims S64x768 S768x768 S64x768 where
  lhsContracting := [1]
  rhsContracting := [0]
  lhsNonContracting := [0]
  rhsNonContracting := [1]
  lhsBatch := []
  rhsBatch := []
  wf := by decide

/-- The polarity head's matrix product. -/
def dApc : DotDims S64x768 S768x3 S64x3 where
  lhsContracting := [1]
  rhsContracting := [0]
  lhsNonContracting := [0]
  rhsNonContracting := [1]
  lhsBatch := []
  rhsBatch := []
  wf := by decide

variable {F : FTy → Type} [FloatOps F]

/-- `tanh (r · W_pool + b_pool) · W_apc + b_apc`, the tail both programs apply to the selected rows. -/
def head (r : FVec F S64x768 .f32) (Wp : FVec F S768x768 .f32) (bp : FVec F S768 .f32) (Wa : FVec F S768x3 .f32)
    (ba : FVec F S3 .f32) : FVec F S64x3 .f32 :=
  addf
    (Host.dotGeneral dApc none
      (Host.tanh (addf (Host.dotGeneral dPool none r Wp)
        (broadcastInDim S64x768 ![0, 1] (by decide) (broadcastInDim S1x768 ![1] (by decide) bp))))
      Wa)
    (broadcastInDim S64x3 ![0, 1] (by decide) (broadcastInDim S1x3 ![1] (by decide) ba))

end Cert.Compact

end
-- ==== Proof.RefRun.lean ====
/-
  The reference program's run, read back.

  The reference is a straight line of host operations (the two outlined helpers, the running count and the
  select, inlined at their calls).  Every weakly fair execution terminates with each result buffer at the
  operations' composed term of the argument arrays, the arguments unchanged.  The composed terms are named here:
  the index tensor the scatter reads (`idxOf`), the compacted tensor (`comp`), the logits (`ate`), row 0 of
  the compacted tensor (`row0`) and the polarity logits (`apc`).
-/
import proofs.«430234_j70746701300093_3_alg».proof.Proof.Gen.ReferenceIdeal
import proofs.«430234_j70746701300093_3_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- The row component of the scatter's index vectors: the batch number, with the wrap-around of a negative index
    written out (never taken: a batch number is not negative). -/
def rows : IVec S64x512 32 :=
  select
    (cmpi .slt
      (broadcastInDim S64x512 ![0, 1] bcast_S64x1_S64x512_0_1 (broadcastInDim S64x1 ![0] bcast_S64_S64x1_0 (iotaInDim S64 32 0)))
      (broadcastInDim S64x512 ![] bcast_S_S64x512 (constantI S_ 32 0#32)))
    (addi
      (broadcastInDim S64x512 ![0, 1] bcast_S64x1_S64x512_0_1 (broadcastInDim S64x1 ![0] bcast_S64_S64x1_0 (iotaInDim S64 32 0)))
      (broadcastInDim S64x512 ![] bcast_S_S64x512 (constantI S_ 32 64#32)))
    (broadcastInDim S64x512 ![0, 1] bcast_S64x1_S64x512_0_1 (broadcastInDim S64x1 ![0] bcast_S64_S64x1_0 (iotaInDim S64 32 0)))

/-- The slot component: the slot each source row is sent to, a negative one wrapped by 512. -/
def cols (vid : IVec S64x512 32) : IVec S64x512 32 :=
  select
    (cmpi .slt (Cert.Compact.tgtOf vid) (broadcastInDim S64x512 ![] bcast_S_S64x512 (constantI S_ 32 0#32)))
    (addi (Cert.Compact.tgtOf vid) (broadcastInDim S64x512 ![] bcast_S_S64x512 (constantI S_ 32 512#32)))
    (Cert.Compact.tgtOf vid)

/-- The scatter's index tensor: `(row, slot)` per source row. -/
def idxOf (vid : IVec S64x512 32) : IVec S64x512x2 32 :=
  concatenate S64x512x2 2
    [⟨S64x512x1, broadcastInDim S64x512x1 ![0, 1] bcast_S64x512_S64x512x1_0_1 rows⟩,
     ⟨S64x512x1, broadcastInDim S64x512x1 ![0, 1] bcast_S64x512_S64x512x1_0_1 (cols vid)⟩]
    concatenates_S64x512x1_S64x512x1_S64x512x2_d2

/-- The compacted tensor: the source rows written at their slots into zeros. -/
def comp (x : FVec F S64x512x768 .f32) (vid : IVec S64x512 32) : FVec F S64x512x768 .f32 :=
  Host.scatter scatter_S64x512x768_S64x512x2_S64x512x768_2_01_01_2 (fun _ b => b)
    (broadcastInDim S64x512x768 ![] bcast_S_S64x512x768 (constant S_ .f32 0x00000000#32)) (idxOf vid) x

/-- The classifier logits of the compacted tensor, plus the bias. -/
def ate (x : FVec F S64x512x768 .f32) (vid : IVec S64x512 32) (W : FVec F S768x6 .f32) (bc : FVec F S6 .f32) :
    FVec F S64x512x6 .f32 :=
  addf (Host.dotGeneral dot_S64x512x768_S768x6_S64x512x6_2_0_01_1_n_n none (comp x vid) W)
    (broadcastInDim S64x512x6 ![0, 1, 2] bcast_S1x1x6_S64x512x6_0_1_2 (broadcastInDim S1x1x6 ![2] bcast_S6_S1x1x6_2 bc))

/-- Row 0 of the compacted tensor, per batch. -/
def row0 (x : FVec F S64x512x768 .f32) (vid : IVec S64x512 32) : FVec F S64x768 .f32 :=
  shapeCast S64x768 (extractStridedSlice S64x1x768 ![0, 0, 0] (comp x vid) slices_S64x512x768_S64x1x768_0_0_0)
    shapeCasts_S64x1x768_S64x768

/-- The polarity logits: the pooler and the polarity head applied to row 0. -/
def apc (x : FVec F S64x512x768 .f32) (vid : IVec S64x512 32) (Wp : FVec F S768x768 .f32) (bp : FVec F S768 .f32)
    (Wa : FVec F S768x3 .f32) (ba : FVec F S3 .f32) : FVec F S64x3 .f32 :=
  Cert.Compact.head (row0 x vid) Wp bp Wa ba

/-- @main's 51 operations in program order, the two outlined helpers' operations placed at their calls: the
    running count's three (its zero, the zero's broadcast, the windowed sum) after the mask's comparison, and the
    select's three (the fill value's conversion, its broadcast, the select) after the fill constant. -/
abbrev ops : List (HloOp τ sig (Elt F)) :=
  [ StableHlo.nullary main_c (constantI S_ 32 1#32),
    StableHlo.unary main_c main_v0 (broadcastInDim S64x512 ![] bcast_S_S64x512 : (⟨S_, .i32⟩ : BufTy).Contents (Elt F) → (⟨S64x512, .i32⟩ : BufTy).Contents (Elt F)),
    StableHlo.binary main_arg1 main_v0 main_v1 (cmpi .eq : (⟨S64x512, .i32⟩ : BufTy).Contents (Elt F) → (⟨S64x512, .i32⟩ : BufTy).Contents (Elt F) → (⟨S64x512, .i1⟩ : BufTy).Contents (Elt F)),
    TRef.nullary main_call0.call0.c (constantI S_ 32 0#32),
    TRef.unary main_call0.call0.c main_call0.call0.v0 (broadcastInDim S_ ![] bcast_S_S_),
    TRef.binary (.of main_arg1) main_call0.call0.v0 main_call0.call0.v1 (fun x v => Host.reduceWindow IntOp.addi ![1, 512] ![1, 1] ![0, 511] ![0, 0] x v reduceWindows_S64x512_S64x512_w1s1p0_0_w512s1p511_0 h_S_),
    StableHlo.nullary main_c_0 (constantI S_ 32 1#32),
    StableHlo.unary main_c_0 main_v3 (broadcastInDim S64x512 ![] bcast_S_S64x512 : (⟨S_, .i32⟩ : BufTy).Contents (Elt F) → (⟨S64x512, .i32⟩ : BufTy).Contents (Elt F)),
    StableHlo.binary main_v2 main_v3 main_v4 (subi : (⟨S64x512, .i32⟩ : BufTy).Contents (Elt F) → (⟨S64x512, .i32⟩ : BufTy).Contents (Elt F) → (⟨S64x512, .i32⟩ : BufTy).Contents (Elt F)),
    StableHlo.nullary main_c_1 (constantI S_ 32 512#32),
    TRef.unary (.of main_c_1) main_call1.v0 id,
    TRef.unary main_call1.v0 main_call1.v1 (broadcastInDim S64x512 ![] bcast_S_S64x512),
    TRef.ternary (.of main_v1) (.of main_v4) main_call1.v1 main_call1.v2 select,
    StableHlo.nullary main_v6 (iotaInDim S64 32 0),
    StableHlo.unary main_v6 main_v7 (broadcastInDim S64x1 ![0] bcast_S64_S64x1_0 : (⟨S64, .i32⟩ : BufTy).Contents (Elt F) → (⟨S64x1, .i32⟩ : BufTy).Contents (Elt F)),
    StableHlo.unary main_v7 main_v8 (broadcastInDim S64x512 ![0, 1] bcast_S64x1_S64x512_0_1 : (⟨S64x1, .i32⟩ : BufTy).Contents (Elt F) → (⟨S64x512, .i32⟩ : BufTy).Contents (Elt F)),
    StableHlo.nullary main_cst (constant S_ .f32 0x00000000#32),
    StableHlo.unary main_cst main_v9 (broadcastInDim S64x512x768 ![] bcast_S_S64x512x768 : (⟨S_, .f32⟩ : BufTy).Contents (Elt F) → (⟨S64x512x768, .f32⟩ : BufTy).Contents (Elt F)),
    StableHlo.nullary main_c_2 (constantI S_ 32 0#32),
    StableHlo.unary main_c_2 main_v10 (broadcastInDim S64x512 ![] bcast_S_S64x512 : (⟨S_, .i32⟩ : BufTy).Contents (Elt F) → (⟨S64x512, .i32⟩ : BufTy).Contents (Elt F)),
    StableHlo.binary main_v8 main_v10 main_v11 (cmpi .slt : (⟨S64x512, .i32⟩ : BufTy).Contents (Elt F) → (⟨S64x512, .i32⟩ : BufTy).Contents (Elt F) → (⟨S64x512, .i1⟩ : BufTy).Contents (Elt F)),
    StableHlo.nullary main_c_3 (constantI S_ 32 64#32),
    StableHlo.unary main_c_3 main_v12 (broadcastInDim S64x512 ![] bcast_S_S64x512 : (⟨S_, .i32⟩ : BufTy).Contents (Elt F) → (⟨S64x512, .i32⟩ : BufTy).Contents (Elt F)),
    StableHlo.binary main_v8 main_v12 main_v13 (addi : (⟨S64x512, .i32⟩ : BufTy).Contents (Elt F) → (⟨S64x512, .i32⟩ : BufTy).Contents (Elt F) → (⟨S64x512, .i32⟩ : BufTy).Contents (Elt F)),
    StableHlo.ternary main_v11 main_v13 main_v8 main_v14 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.nullary main_c_4 (constantI S_ 32 0#32),
    StableHlo.unary main_c_4 main_v15 (broadcastInDim S64x512 ![] bcast_S_S64x512 : (⟨S_, .i32⟩ : BufTy).Contents (Elt F) → (⟨S64x512, .i32⟩ : BufTy).Contents (Elt F)),
    StableHlo.binary main_v5 main_v15 main_v16 (cmpi .slt : (⟨S64x512, .i32⟩ : BufTy).Contents (Elt F) → (⟨S64x512, .i32⟩ : BufTy).Contents (Elt F) → (⟨S64x512, .i1⟩ : BufTy).Contents (Elt F)),
    StableHlo.nullary main_c_5 (constantI S_ 32 512#32),
    StableHlo.unary main_c_5 main_v17 (broadcastInDim S64x512 ![] bcast_S_S64x512 : (⟨S_, .i32⟩ : BufTy).Contents (Elt F) → (⟨S64x512, .i32⟩ : BufTy).Contents (Elt F)),
    StableHlo.binary main_v5 main_v17 main_v18 (addi : (⟨S64x512, .i32⟩ : BufTy).Contents (Elt F) → (⟨S64x512, .i32⟩ : BufTy).Contents (Elt F) → (⟨S64x512, .i32⟩ : BufTy).Contents (Elt F)),
    StableHlo.ternary main_v16 main_v18 main_v5 main_v19 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v14 main_v20 (broadcastInDim S64x512x1 ![0, 1] bcast_S64x512_S64x512x1_0_1 : (⟨S64x512, .i32⟩ : BufTy).Contents (Elt F) → (⟨S64x512x1, .i32⟩ : BufTy).Contents (Elt F)),
    StableHlo.unary main_v19 main_v21 (broadcastInDim S64x512x1 ![0, 1] bcast_S64x512_S64x512x1_0_1 : (⟨S64x512, .i32⟩ : BufTy).Contents (Elt F) → (⟨S64x512x1, .i32⟩ : BufTy).Contents (Elt F)),
    StableHlo.binary main_v20 main_v21 main_v22 ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)),
    StableHlo.ternary main_v9 main_v22 main_arg0 main_v23 ((fun x i u => Host.scatter scatter_S64x512x768_S64x512x2_S64x512x768_2_01_01_2 (fun _ b => b) x i u) : (⟨S64x512x768, .f32⟩ : BufTy).Contents (Elt F) → (⟨S64x512x2, .i32⟩ : BufTy).Contents (Elt F) → (⟨S64x512x768, .f32⟩ : BufTy).Contents (Elt F) → (⟨S64x512x768, .f32⟩ : BufTy).Contents (Elt F)),
    StableHlo.binary main_v23 main_arg2 main_v24 ((fun l r => Host.dotGeneral dot_S64x512x768_S768x6_S64x512x6_2_0_01_1_n_n none l r) : (⟨S64x512x768, .f32⟩ : BufTy).Contents (Elt F) → (⟨S768x6, .f32⟩ : BufTy).Contents (Elt F) → (⟨S64x512x6, .f32⟩ : BufTy).Contents (Elt F)),
    StableHlo.unary main_arg3 main_v25 (broadcastInDim S1x1x6 ![2] bcast_S6_S1x1x6_2 : (⟨S6, .f32⟩ : BufTy).Contents (Elt F) → (⟨S1x1x6, .f32⟩ : BufTy).Contents (Elt F)),
    StableHlo.unary main_v25 main_v26 (broadcastInDim S64x512x6 ![0, 1, 2] bcast_S1x1x6_S64x512x6_0_1_2 : (⟨S1x1x6, .f32⟩ : BufTy).Contents (Elt F) → (⟨S64x512x6, .f32⟩ : BufTy).Contents (Elt F)),
    StableHlo.binary main_v24 main_v26 main_v27 (addf : (⟨S64x512x6, .f32⟩ : BufTy).Contents (Elt F) → (⟨S64x512x6, .f32⟩ : BufTy).Contents (Elt F) → (⟨S64x512x6, .f32⟩ : BufTy).Contents (Elt F)),
    StableHlo.unary main_v23 main_v28 ((extractStridedSlice S64x1x768 ![0, 0, 0] · slices_S64x512x768_S64x1x768_0_0_0) : (⟨S64x512x768, .f32⟩ : BufTy).Contents (Elt F) → (⟨S64x1x768, .f32⟩ : BufTy).Contents (Elt F)),
    StableHlo.reshape main_v28 main_v29 rfl shapeCasts_S64x1x768_S64x768,
    StableHlo.binary main_v29 main_arg4 main_v30 ((fun l r => Host.dotGeneral dot_S64x768_S768x768_S64x768_1_0_0_1_n_n none l r) : (⟨S64x768, .f32⟩ : BufTy).Contents (Elt F) → (⟨S768x768, .f32⟩ : BufTy).Contents (Elt F) → (⟨S64x768, .f32⟩ : BufTy).Contents (Elt F)),
    StableHlo.unary main_arg5 main_v31 (broadcastInDim S1x768 ![1] bcast_S768_S1x768_1 : (⟨S768, .f32⟩ : BufTy).Contents (Elt F) → (⟨S1x768, .f32⟩ : BufTy).Contents (Elt F)),
    StableHlo.unary main_v31 main_v32 (broadcastInDim S64x768 ![0, 1] bcast_S1x768_S64x768_0_1 : (⟨S1x768, .f32⟩ : BufTy).Contents (Elt F) → (⟨S64x768, .f32⟩ : BufTy).Contents (Elt F)),
    StableHlo.binary main_v30 main_v32 main_v33 (addf : (⟨S64x768, .f32⟩ : BufTy).Contents (Elt F) → (⟨S64x768, .f32⟩ : BufTy).Contents (Elt F) → (⟨S64x768, .f32⟩ : BufTy).Contents (Elt F)),
    StableHlo.unary main_v33 main_v34 (Host.tanh : (⟨S64x768, .f32⟩ : BufTy).Contents (Elt F) → (⟨S64x768, .f32⟩ : BufTy).Contents (Elt F)),
    StableHlo.binary main_v34 main_arg6 main_v35 ((fun l r => Host.dotGeneral dot_S64x768_S768x3_S64x3_1_0_0_1_n_n none l r) : (⟨S64x768, .f32⟩ : BufTy).Contents (Elt F) → (⟨S768x3, .f32⟩ : BufTy).Contents (Elt F) → (⟨S64x3, .f32⟩ : BufTy).Contents (Elt F)),
    StableHlo.unary main_arg7 main_v36 (broadcastInDim S1x3 ![1] bcast_S3_S1x3_1 : (⟨S3, .f32⟩ : BufTy).Contents (Elt F) → (⟨S1x3, .f32⟩ : BufTy).Contents (Elt F)),
    StableHlo.unary main_v36 main_v37 (broadcastInDim S64x3 ![0, 1] bcast_S1x3_S64x3_0_1 : (⟨S1x3, .f32⟩ : BufTy).Contents (Elt F) → (⟨S64x3, .f32⟩ : BufTy).Contents (Elt F)),
    StableHlo.binary main_v35 main_v37 main_v38 (addf : (⟨S64x3, .f32⟩ : BufTy).Contents (Elt F) → (⟨S64x3, .f32⟩ : BufTy).Contents (Elt F) → (⟨S64x3, .f32⟩ : BufTy).Contents (Elt F)) ]

set_option maxRecDepth 1024 in
/-- @main is that straight line: the helpers' definitions unfolded at their calls, both sides are one chain of
    steps once sequencing is reassociated. -/
theorem main_eq (c : Dev nD) : main (F := F) c = seq ops := by
  simp only [main, fn_cumsum.body, fn_cumsum_0.body, fn_where.body, seq, bind_assoc, pure_bind]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., unary_bufs_sub .., unary_bufs_sub .., binary_bufs_sub .., unary_bufs_sub .., reshape_bufs_sub .., binary_bufs_sub .., unary_bufs_sub .., unary_bufs_sub .., binary_bufs_sub .., unary_bufs_sub .., binary_bufs_sub .., unary_bufs_sub .., unary_bufs_sub .., binary_bufs_sub ..⟩

/-- The first 34 operations: everything up to the two index components' broadcasts to `64×512×1`. -/
abbrev opsA : List (HloOp τ sig (Elt F)) :=
  [ StableHlo.nullary main_c (constantI S_ 32 1#32),
    StableHlo.unary main_c main_v0 (broadcastInDim S64x512 ![] bcast_S_S64x512 : (⟨S_, .i32⟩ : BufTy).Contents (Elt F) → (⟨S64x512, .i32⟩ : BufTy).Contents (Elt F)),
    StableHlo.binary main_arg1 main_v0 main_v1 (cmpi .eq : (⟨S64x512, .i32⟩ : BufTy).Contents (Elt F) → (⟨S64x512, .i32⟩ : BufTy).Contents (Elt F) → (⟨S64x512, .i1⟩ : BufTy).Contents (Elt F)),
    TRef.nullary main_call0.call0.c (constantI S_ 32 0#32),
    TRef.unary main_call0.call0.c main_call0.call0.v0 (broadcastInDim S_ ![] bcast_S_S_),
    TRef.binary (.of main_arg1) main_call0.call0.v0 main_call0.call0.v1 (fun x v => Host.reduceWindow IntOp.addi ![1, 512] ![1, 1] ![0, 511] ![0, 0] x v reduceWindows_S64x512_S64x512_w1s1p0_0_w512s1p511_0 h_S_),
    StableHlo.nullary main_c_0 (constantI S_ 32 1#32),
    StableHlo.unary main_c_0 main_v3 (broadcastInDim S64x512 ![] bcast_S_S64x512 : (⟨S_, .i32⟩ : BufTy).Contents (Elt F) → (⟨S64x512, .i32⟩ : BufTy).Contents (Elt F)),
    StableHlo.binary main_v2 main_v3 main_v4 (subi : (⟨S64x512, .i32⟩ : BufTy).Contents (Elt F) → (⟨S64x512, .i32⟩ : BufTy).Contents (Elt F) → (⟨S64x512, .i32⟩ : BufTy).Contents (Elt F)),
    StableHlo.nullary main_c_1 (constantI S_ 32 512#32),
    TRef.unary (.of main_c_1) main_call1.v0 id,
    TRef.unary main_call1.v0 main_call1.v1 (broadcastInDim S64x512 ![] bcast_S_S64x512),
    TRef.ternary (.of main_v1) (.of main_v4) main_call1.v1 main_call1.v2 select,
    StableHlo.nullary main_v6 (iotaInDim S64 32 0),
    StableHlo.unary main_v6 main_v7 (broadcastInDim S64x1 ![0] bcast_S64_S64x1_0 : (⟨S64, .i32⟩ : BufTy).Contents (Elt F) → (⟨S64x1, .i32⟩ : BufTy).Contents (Elt F)),
    StableHlo.unary main_v7 main_v8 (broadcastInDim S64x512 ![0, 1] bcast_S64x1_S64x512_0_1 : (⟨S64x1, .i32⟩ : BufTy).Contents (Elt F) → (⟨S64x512, .i32⟩ : BufTy).Contents (Elt F)),
    StableHlo.nullary main_cst (constant S_ .f32 0x00000000#32),
    StableHlo.unary main_cst main_v9 (broadcastInDim S64x512x768 ![] bcast_S_S64x512x768 : (⟨S_, .f32⟩ : BufTy).Contents (Elt F) → (⟨S64x512x768, .f32⟩ : BufTy).Contents (Elt F)),
    StableHlo.nullary main_c_2 (constantI S_ 32 0#32),
    StableHlo.unary main_c_2 main_v10 (broadcastInDim S64x512 ![] bcast_S_S64x512 : (⟨S_, .i32⟩ : BufTy).Contents (Elt F) → (⟨S64x512, .i32⟩ : BufTy).Contents (Elt F)),
    StableHlo.binary main_v8 main_v10 main_v11 (cmpi .slt : (⟨S64x512, .i32⟩ : BufTy).Contents (Elt F) → (⟨S64x512, .i32⟩ : BufTy).Contents (Elt F) → (⟨S64x512, .i1⟩ : BufTy).Contents (Elt F)),
    StableHlo.nullary main_c_3 (constantI S_ 32 64#32),
    StableHlo.unary main_c_3 main_v12 (broadcastInDim S64x512 ![] bcast_S_S64x512 : (⟨S_, .i32⟩ : BufTy).Contents (Elt F) → (⟨S64x512, .i32⟩ : BufTy).Contents (Elt F)),
    StableHlo.binary main_v8 main_v12 main_v13 (addi : (⟨S64x512, .i32⟩ : BufTy).Contents (Elt F) → (⟨S64x512, .i32⟩ : BufTy).Contents (Elt F) → (⟨S64x512, .i32⟩ : BufTy).Contents (Elt F)),
    StableHlo.ternary main_v11 main_v13 main_v8 main_v14 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.nullary main_c_4 (constantI S_ 32 0#32),
    StableHlo.unary main_c_4 main_v15 (broadcastInDim S64x512 ![] bcast_S_S64x512 : (⟨S_, .i32⟩ : BufTy).Contents (Elt F) → (⟨S64x512, .i32⟩ : BufTy).Contents (Elt F)),
    StableHlo.binary main_v5 main_v15 main_v16 (cmpi .slt : (⟨S64x512, .i32⟩ : BufTy).Contents (Elt F) → (⟨S64x512, .i32⟩ : BufTy).Contents (Elt F) → (⟨S64x512, .i1⟩ : BufTy).Contents (Elt F)),
    StableHlo.nullary main_c_5 (constantI S_ 32 512#32),
    StableHlo.unary main_c_5 main_v17 (broadcastInDim S64x512 ![] bcast_S_S64x512 : (⟨S_, .i32⟩ : BufTy).Contents (Elt F) → (⟨S64x512, .i32⟩ : BufTy).Contents (Elt F)),
    StableHlo.binary main_v5 main_v17 main_v18 (addi : (⟨S64x512, .i32⟩ : BufTy).Contents (Elt F) → (⟨S64x512, .i32⟩ : BufTy).Contents (Elt F) → (⟨S64x512, .i32⟩ : BufTy).Contents (Elt F)),
    StableHlo.ternary main_v16 main_v18 main_v5 main_v19 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    StableHlo.unary main_v14 main_v20 (broadcastInDim S64x512x1 ![0, 1] bcast_S64x512_S64x512x1_0_1 : (⟨S64x512, .i32⟩ : BufTy).Contents (Elt F) → (⟨S64x512x1, .i32⟩ : BufTy).Contents (Elt F)),
    StableHlo.unary main_v19 main_v21 (broadcastInDim S64x512x1 ![0, 1] bcast_S64x512_S64x512x1_0_1 : (⟨S64x512, .i32⟩ : BufTy).Contents (Elt F) → (⟨S64x512x1, .i32⟩ : BufTy).Contents (Elt F)) ]

/-- The last 17 operations: the index tensor's concatenation, the scatter, and the two heads. -/
abbrev opsB : List (HloOp τ sig (Elt F)) :=
  [ StableHlo.binary main_v20 main_v21 main_v22 ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)),
    StableHlo.ternary main_v9 main_v22 main_arg0 main_v23 ((fun x i u => Host.scatter scatter_S64x512x768_S64x512x2_S64x512x768_2_01_01_2 (fun _ b => b) x i u) : (⟨S64x512x768, .f32⟩ : BufTy).Contents (Elt F) → (⟨S64x512x2, .i32⟩ : BufTy).Contents (Elt F) → (⟨S64x512x768, .f32⟩ : BufTy).Contents (Elt F) → (⟨S64x512x768, .f32⟩ : BufTy).Contents (Elt F)),
    StableHlo.binary main_v23 main_arg2 main_v24 ((fun l r => Host.dotGeneral dot_S64x512x768_S768x6_S64x512x6_2_0_01_1_n_n none l r) : (⟨S64x512x768, .f32⟩ : BufTy).Contents (Elt F) → (⟨S768x6, .f32⟩ : BufTy).Contents (Elt F) → (⟨S64x512x6, .f32⟩ : BufTy).Contents (Elt F)),
    StableHlo.unary main_arg3 main_v25 (broadcastInDim S1x1x6 ![2] bcast_S6_S1x1x6_2 : (⟨S6, .f32⟩ : BufTy).Contents (Elt F) → (⟨S1x1x6, .f32⟩ : BufTy).Contents (Elt F)),
    StableHlo.unary main_v25 main_v26 (broadcastInDim S64x512x6 ![0, 1, 2] bcast_S1x1x6_S64x512x6_0_1_2 : (⟨S1x1x6, .f32⟩ : BufTy).Contents (Elt F) → (⟨S64x512x6, .f32⟩ : BufTy).Contents (Elt F)),
    StableHlo.binary main_v24 main_v26 main_v27 (addf : (⟨S64x512x6, .f32⟩ : BufTy).Contents (Elt F) → (⟨S64x512x6, .f32⟩ : BufTy).Contents (Elt F) → (⟨S64x512x6, .f32⟩ : BufTy).Contents (Elt F)),
    StableHlo.unary main_v23 main_v28 ((extractStridedSlice S64x1x768 ![0, 0, 0] · slices_S64x512x768_S64x1x768_0_0_0) : (⟨S64x512x768, .f32⟩ : BufTy).Contents (Elt F) → (⟨S64x1x768, .f32⟩ : BufTy).Contents (Elt F)),
    StableHlo.reshape main_v28 main_v29 rfl shapeCasts_S64x1x768_S64x768,
    StableHlo.binary main_v29 main_arg4 main_v30 ((fun l r => Host.dotGeneral dot_S64x768_S768x768_S64x768_1_0_0_1_n_n none l r) : (⟨S64x768, .f32⟩ : BufTy).Contents (Elt F) → (⟨S768x768, .f32⟩ : BufTy).Contents (Elt F) → (⟨S64x768, .f32⟩ : BufTy).Contents (Elt F)),
    StableHlo.unary main_arg5 main_v31 (broadcastInDim S1x768 ![1] bcast_S768_S1x768_1 : (⟨S768, .f32⟩ : BufTy).Contents (Elt F) → (⟨S1x768, .f32⟩ : BufTy).Contents (Elt F)),
    StableHlo.unary main_v31 main_v32 (broadcastInDim S64x768 ![0, 1] bcast_S1x768_S64x768_0_1 : (⟨S1x768, .f32⟩ : BufTy).Contents (Elt F) → (⟨S64x768, .f32⟩ : BufTy).Contents (Elt F)),
    StableHlo.binary main_v30 main_v32 main_v33 (addf : (⟨S64x768, .f32⟩ : BufTy).Contents (Elt F) → (⟨S64x768, .f32⟩ : BufTy).Contents (Elt F) → (⟨S64x768, .f32⟩ : BufTy).Contents (Elt F)),
    StableHlo.unary main_v33 main_v34 (Host.tanh : (⟨S64x768, .f32⟩ : BufTy).Contents (Elt F) → (⟨S64x768, .f32⟩ : BufTy).Contents (Elt F)),
    StableHlo.binary main_v34 main_arg6 main_v35 ((fun l r => Host.dotGeneral dot_S64x768_S768x3_S64x3_1_0_0_1_n_n none l r) : (⟨S64x768, .f32⟩ : BufTy).Contents (Elt F) → (⟨S768x3, .f32⟩ : BufTy).Contents (Elt F) → (⟨S64x3, .f32⟩ : BufTy).Contents (Elt F)),
    StableHlo.unary main_arg7 main_v36 (broadcastInDim S1x3 ![1] bcast_S3_S1x3_1 : (⟨S3, .f32⟩ : BufTy).Contents (Elt F) → (⟨S1x3, .f32⟩ : BufTy).Contents (Elt F)),
    StableHlo.unary main_v36 main_v37 (broadcastInDim S64x3 ![0, 1] bcast_S1x3_S64x3_0_1 : (⟨S1x3, .f32⟩ : BufTy).Contents (Elt F) → (⟨S64x3, .f32⟩ : BufTy).Contents (Elt F)),
    StableHlo.binary main_v35 main_v37 main_v38 (addf : (⟨S64x3, .f32⟩ : BufTy).Contents (Elt F) → (⟨S64x3, .f32⟩ : BufTy).Contents (Elt F) → (⟨S64x3, .f32⟩ : BufTy).Contents (Elt F)) ]

/-- The line is its two parts in order. -/
theorem ops_split : (ops : List (HloOp τ sig (Elt F))) = opsA ++ opsB := rfl

/-- The contents after two lines run one after the other: the second's over the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### After the first part: the zeros, the two index components, the arguments -/

/-- After the first part the scatter's operand is the zeros. -/
theorem a_v9 (V : Valuation τ sig (Elt F)) :
    after opsA V (main_v9 : DevRef τ sig)
      = broadcastInDim S64x512x768 ![] bcast_S_S64x512x768 (constant S_ .f32 0x00000000#32) := by
  after_results_simp

/-- After the first part the row component, as a `64×512×1` tensor, is `rows`. -/
theorem a_v20 (V : Valuation τ sig (Elt F)) :
    after opsA V (main_v20 : DevRef τ sig)
      = broadcastInDim S64x512x1 ![0, 1] bcast_S64x512_S64x512x1_0_1 rows := by
  after_results_simp
  rfl

/-- After the first part the slot component, as a `64×512×1` tensor, is `cols` of the mask: the running count,
    the subtraction, the comparison and the select are `tgtOf`'s, the helpers' changes of type the identity. -/
theorem a_v21 (V : Valuation τ sig (Elt F)) :
    after opsA V (main_v21 : DevRef τ sig)
      = broadcastInDim S64x512x1 ![0, 1] bcast_S64x512_S64x512x1_0_1 (cols (V (main_arg1 : DevRef τ sig))) := by
  after_results_simp
  simp only [TRef.toBuf, TRef.ofBuf, cast_eq]
  rfl

/-- The first part writes no argument: argument 0 keeps its contents. -/
theorem a_arg0 (V : Valuation τ sig (Elt F)) :
    after opsA V (main_arg0 : DevRef τ sig) = V (main_arg0 : DevRef τ sig) := by
  after_results_simp

/-- The first part writes no argument: argument 2 keeps its contents. -/
theorem a_arg2 (V : Valuation τ sig (Elt F)) :
    after opsA V (main_arg2 : DevRef τ sig) = V (main_arg2 : DevRef τ sig) := by
  after_results_simp

/-- The first part writes no argument: argument 3 keeps its contents. -/
theorem a_arg3 (V : Valuation τ sig (Elt F)) :
    after opsA V (main_arg3 : DevRef τ sig) = V (main_arg3 : DevRef τ sig) := by
  after_results_simp

/-- The first part writes no argument: argument 4 keeps its contents. -/
theorem a_arg4 (V : Valuation τ sig (Elt F)) :
    after opsA V (main_arg4 : DevRef τ sig) = V (main_arg4 : DevRef τ sig) := by
  after_results_simp

/-- The first part writes no argument: argument 5 keeps its contents. -/
theorem a_arg5 (V : Valuation τ sig (Elt F)) :
    after opsA V (main_arg5 : DevRef τ sig) = V (main_arg5 : DevRef τ sig) := by
  after_results_simp

/-- The first part writes no argument: argument 6 keeps its contents. -/
theorem a_arg6 (V : Valuation τ sig (Elt F)) :
    after opsA V (main_arg6 : DevRef τ sig) = V (main_arg6 : DevRef τ sig) := by
  after_results_simp

/-- The first part writes no argument: argument 7 keeps its contents. -/
theorem a_arg7 (V : Valuation τ sig (Elt F)) :
    after opsA V (main_arg7 : DevRef τ sig) = V (main_arg7 : DevRef τ sig) := by
  after_results_simp

/-! ### The whole line at the two results and at the arguments -/

/-- The first result is `ate` of the arguments: the second part read over the first part's contents. -/
theorem v27_eq (V : Valuation τ sig (Elt F)) :
    after ops V (main_v27 : DevRef τ sig)
      = ate (V (main_arg0 : DevRef τ sig)) (V (main_arg1 : DevRef τ sig)) (V (main_arg2 : DevRef τ sig)) (V (main_arg3 : DevRef τ sig)) := by
  rw [ops_split, after_app]
  have h9 := a_v9 V; have h20 := a_v20 V; have h21 := a_v21 V
  have h0 := a_arg0 V; have h2 := a_arg2 V; have h3 := a_arg3 V
  generalize after opsA V = W at h9 h20 h21 h0 h2 h3 ⊢
  after_results_simp
  rw [h9, h20, h21, h0, h2, h3]
  rfl

/-- The second result is `apc` of the arguments, likewise. -/
theorem v38_eq (V : Valuation τ sig (Elt F)) :
    after ops V (main_v38 : DevRef τ sig)
      = apc (V (main_arg0 : DevRef τ sig)) (V (main_arg1 : DevRef τ sig)) (V (main_arg4 : DevRef τ sig)) (V (main_arg5 : DevRef τ sig)) (V (main_arg6 : DevRef τ sig)) (V (main_arg7 : DevRef τ sig)) := by
  rw [ops_split, after_app]
  have h9 := a_v9 V; have h20 := a_v20 V; have h21 := a_v21 V
  have h0 := a_arg0 V; have h4 := a_arg4 V; have h5 := a_arg5 V; have h6 := a_arg6 V; have h7 := a_arg7 V
  generalize after opsA V = W at h9 h20 h21 h0 h4 h5 h6 h7 ⊢
  after_results_simp
  rw [h9, h20, h21, h0, h4, h5, h6, h7]
  rfl

/-- No operation writes an argument: argument 0 keeps its contents. -/
theorem arg0_eq (V : Valuation τ sig (Elt F)) :
    after ops V (main_arg0 : DevRef τ sig) = V (main_arg0 : DevRef τ sig) := by
  after_results_simp

/-- No operation writes an argument: argument 1 keeps its contents. -/
theorem arg1_eq (V : Valuation τ sig (Elt F)) :
    after ops V (main_arg1 : DevRef τ sig) = V (main_arg1 : DevRef τ sig) := by
  after_results_simp

/-- No operation writes an argument: argument 2 keeps its contents. -/
theorem arg2_eq (V : Valuation τ sig (Elt F)) :
    after ops V (main_arg2 : DevRef τ sig) = V (main_arg2 : DevRef τ sig) := by
  after_results_simp

/-- No operation writes an argument: argument 3 keeps its contents. -/
theorem arg3_eq (V : Valuation τ sig (Elt F)) :
    after ops V (main_arg3 : DevRef τ sig) = V (main_arg3 : DevRef τ sig) := by
  after_results_simp

/-- No operation writes an argument: argument 4 keeps its contents. -/
theorem arg4_eq (V : Valuation τ sig (Elt F)) :
    after ops V (main_arg4 : DevRef τ sig) = V (main_arg4 : DevRef τ sig) := by
  after_results_simp

/-- No operation writes an argument: argument 5 keeps its contents. -/
theorem arg5_eq (V : Valuation τ sig (Elt F)) :
    after ops V (main_arg5 : DevRef τ sig) = V (main_arg5 : DevRef τ sig) := by
  after_results_simp

/-- No operation writes an argument: argument 6 keeps its contents. -/
theorem arg6_eq (V : Valuation τ sig (Elt F)) :
    after ops V (main_arg6 : DevRef τ sig) = V (main_arg6 : DevRef τ sig) := by
  after_results_simp

/-- No operation writes an argument: argument 7 keeps its contents. -/
theorem arg7_eq (V : Valuation τ sig (Elt F)) :
    after ops V (main_arg7 : DevRef τ sig) = V (main_arg7 : DevRef τ sig) := by
  after_results_simp

/-- On every device, for any float values, from any memory with zero counters: every weakly fair execution of
    @main terminates with the two results at `ate` and `apc` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = ate (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v38)
          = apc (m ((c.tc : Thread nD τ).loc main_arg0)) (m ((c.tc : Thread nD τ).loc main_arg1))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v27).trans (v27_eq _), (h c main_v38).trans (v38_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.Hand

end
-- ==== Proof.KPay.lean ====
/-
  The kernel body's two stored values at an index, over the extended reals.

  The first store holds, at `(p, k, i)`, the classifier logits of every source row `j` of block row `p`
  — the row's dot product with column `k` of the classifier matrix — summed against the indicator that row `j` is sent
  to slot `i`, plus the bias `k`.  The second holds, at `(p, 0, e)`, feature `e` of the source rows summed against the
  indicator that the row is sent to slot 0.  Changes of float format are the identity over the extended reals, and the two
  matrix products into a zero accumulator are plain sums.
-/
import proofs.«430234_j70746701300093_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## Two small facts: the slot vector's view, and the indicator -/

/-- The slot vector viewed [4,512] reads the loaded [4,1,512] vector at `(p, 0, j)`. -/
theorem pay1_apply (t : Vec Ideal S4x1x512 .i32) (p : Fin 4) (j : Fin 512) :
    k0_pay1 (F := Ideal) t (ix2 p j) = t (ix3 p (0 : Fin 1) j) := by
  unfold k0_pay1
  refine shapeCast_apply _ _ _ _ ?_
  rw [Shape.rowMajor_val_three, Shape.rowMajor_val_two]
  show (p.val * 1 + 0) * 512 + j.val = p.val * 512 + j.val
  omega

/-- An equality test of two words, widened and converted to a float, is the indicator of the equality. -/
theorem ind_apply (a b : BitVec 32) :
    FloatOps.sitofp (F := Ideal) .f32 ((IntOp.cmpi .eq a b).setWidth 32) = if a = b then (1 : EReal) else 0 := by
  by_cases h : a = b
  · subst h
    rw [if_pos rfl]
    have e : IntOp.cmpi .eq a a = 1#1 := by simp [IntOp.cmpi]
    rw [e]
    show (((BitVec.setWidth 32 1#1).toInt : ℝ) : EReal) = 1
    have e1 : (BitVec.setWidth 32 1#1).toInt = 1 := by decide
    rw [e1]; simp
  · rw [if_neg h]
    have hb : (a == b) = false := by simpa using h
    have e : IntOp.cmpi .eq a b = 0#1 := by simp [IntOp.cmpi, hb]
    rw [e]
    show (((BitVec.setWidth 32 0#1).toInt : ℝ) : EReal) = 0
    have e0 : (BitVec.setWidth 32 0#1).toInt = 0 := by decide
    rw [e0]; simp

/-! ## The classifier product [2048,768] × [768,6] at an index -/

theorem lhs1_0 (j : S2048x6.Idx) (c : dot_S2048x768_S768x6_S2048x6_1_0_0_1_n_n.contr.Idx) :
    (dot_S2048x768_S768x6_S2048x6_1_0_0_1_n_n.lhsIdx j c 0 : ℕ) = j 0 := by
  simp [DotDims.lhsIdx, dot_S2048x768_S768x6_S2048x6_1_0_0_1_n_n]; rfl
theorem lhs1_1 (j : S2048x6.Idx) (c : dot_S2048x768_S768x6_S2048x6_1_0_0_1_n_n.contr.Idx) :
    (dot_S2048x768_S768x6_S2048x6_1_0_0_1_n_n.lhsIdx j c 1 : ℕ) = c ⟨0, by decide⟩ :=
  dot_S2048x768_S768x6_S2048x6_1_0_0_1_n_n.lhsIdx_val_of_single (cl := 1) rfl j c
theorem rhs1_0 (j : S2048x6.Idx) (c : dot_S2048x768_S768x6_S2048x6_1_0_0_1_n_n.contr.Idx) :
    (dot_S2048x768_S768x6_S2048x6_1_0_0_1_n_n.rhsIdx j c 0 : ℕ) = c ⟨0, by decide⟩ :=
  dot_S2048x768_S768x6_S2048x6_1_0_0_1_n_n.rhsIdx_val_of_single (cr := 0) rfl j c
theorem rhs1_1 (j : S2048x6.Idx) (c : dot_S2048x768_S768x6_S2048x6_1_0_0_1_n_n.contr.Idx) :
    (dot_S2048x768_S768x6_S2048x6_1_0_0_1_n_n.rhsIdx j c 1 : ℕ) = j 1 := by
  simp [DotDims.rhsIdx, dot_S2048x768_S768x6_S2048x6_1_0_0_1_n_n]; rfl

/-- Row `r`, column `k` of the product into a zero accumulator is the sum over the 768 contracted coordinates. -/
theorem mm1_apply (A : FVec Ideal S2048x768 .bf16) (B : FVec Ideal S768x6 .bf16) (r : Fin 2048) (k : Fin 6) :
    matmul dot_S2048x768_S768x6_S2048x6_1_0_0_1_n_n none A B (constant (F := Ideal) S2048x6 .f32 0x00000000#32) (ix2 r k)
      = ∑ e : Fin 768, A (ix2 r e) * B (ix2 e k) := by
  show FloatOps.matmul _ none A B _ (ix2 r k) = _
  rw [Ideal.matmul_constant_zero_apply,
    ← Equiv.sum_comp (contrEquiv1 dot_S2048x768_S768x6_S2048x6_1_0_0_1_n_n 768 rfl rfl).symm]
  refine Finset.sum_congr rfl fun e _ => ?_
  have c1 := contrEquiv1_symm_val dot_S2048x768_S768x6_S2048x6_1_0_0_1_n_n 768 rfl rfl e
  have hl : dot_S2048x768_S768x6_S2048x6_1_0_0_1_n_n.lhsIdx (ix2 r k)
      ((contrEquiv1 dot_S2048x768_S768x6_S2048x6_1_0_0_1_n_n 768 rfl rfl).symm e) = ix2 r e := by
    funext ax; apply Fin.ext
    match ax with
    | ⟨0, _⟩ => exact lhs1_0 _ _
    | ⟨1, _⟩ => exact (lhs1_1 _ _).trans c1
  have hr : dot_S2048x768_S768x6_S2048x6_1_0_0_1_n_n.rhsIdx (ix2 r k)
      ((contrEquiv1 dot_S2048x768_S768x6_S2048x6_1_0_0_1_n_n 768 rfl rfl).symm e) = ix2 e k := by
    funext ax; apply Fin.ext
    match ax with
    | ⟨0, _⟩ => exact (rhs1_0 _ _).trans c1
    | ⟨1, _⟩ => exact rhs1_1 _ _
  rw [hl, hr]

/-! ## The batched product [4,512,6] × [4,512,512] → [4,6,512] at an index -/

theorem lhs2_0 (j : S4x6x512.Idx) (c : dot_S4x512x6_S4x512x512_S4x6x512_1_2_2_1_0_0.contr.Idx) :
    (dot_S4x512x6_S4x512x512_S4x6x512_1_2_2_1_0_0.lhsIdx j c 0 : ℕ) = j 0 := by
  simp [DotDims.lhsIdx, dot_S4x512x6_S4x512x512_S4x6x512_1_2_2_1_0_0]; rfl
theorem lhs2_1 (j : S4x6x512.Idx) (c : dot_S4x512x6_S4x512x512_S4x6x512_1_2_2_1_0_0.contr.Idx) :
    (dot_S4x512x6_S4x512x512_S4x6x512_1_2_2_1_0_0.lhsIdx j c 1 : ℕ) = c ⟨0, by decide⟩ :=
  dot_S4x512x6_S4x512x512_S4x6x512_1_2_2_1_0_0.lhsIdx_val_of_single (cl := 1) rfl j c
theorem lhs2_2 (j : S4x6x512.Idx) (c : dot_S4x512x6_S4x512x512_S4x6x512_1_2_2_1_0_0.contr.Idx) :
    (dot_S4x512x6_S4x512x512_S4x6x512_1_2_2_1_0_0.lhsIdx j c 2 : ℕ) = j 1 := by
  simp [DotDims.lhsIdx, dot_S4x512x6_S4x512x512_S4x6x512_1_2_2_1_0_0]; rfl
theorem rhs2_0 (j : S4x6x512.Idx) (c : dot_S4x512x6_S4x512x512_S4x6x512_1_2_2_1_0_0.contr.Idx) :
    (dot_S4x512x6_S4x512x512_S4x6x512_1_2_2_1_0_0.rhsIdx j c 0 : ℕ) = j 0 := by
  simp [DotDims.rhsIdx, dot_S4x512x6_S4x512x512_S4x6x512_1_2_2_1_0_0]; rfl
theorem rhs2_1 (j : S4x6x512.Idx) (c : dot_S4x512x6_S4x512x512_S4x6x512_1_2_2_1_0_0.contr.Idx) :
    (dot_S4x512x6_S4x512x512_S4x6x512_1_2_2_1_0_0.rhsIdx j c 1 : ℕ) = j 2 := by
  simp [DotDims.rhsIdx, dot_S4x512x6_S4x512x512_S4x6x512_1_2_2_1_0_0]; rfl
theorem rhs2_2 (j : S4x6x512.Idx) (c : dot_S4x512x6_S4x512x512_S4x6x512_1_2_2_1_0_0.contr.Idx) :
    (dot_S4x512x6_S4x512x512_S4x6x512_1_2_2_1_0_0.rhsIdx j c 2 : ℕ) = c ⟨0, by decide⟩ :=
  dot_S4x512x6_S4x512x512_S4x6x512_1_2_2_1_0_0.rhsIdx_val_of_single (cr := 2) rfl j c

/-- Entry `(p, k, i)` of the batched product into a zero accumulator is, within batch `p`, the sum over the 512
    contracted rows `j` of the left operand at `(p, j, k)` times the right operand at `(p, i, j)`. -/
theorem mm2_apply (A : FVec Ideal S4x512x6 .bf16) (B : FVec Ideal S4x512x512 .bf16) (p : Fin 4) (k : Fin 6) (i : Fin 512) :
    matmul dot_S4x512x6_S4x512x512_S4x6x512_1_2_2_1_0_0 none A B (constant (F := Ideal) S4x6x512 .f32 0x00000000#32) (ix3 p k i)
      = ∑ j : Fin 512, A (ix3 p j k) * B (ix3 p i j) := by
  show FloatOps.matmul _ none A B _ (ix3 p k i) = _
  rw [Ideal.matmul_constant_zero_apply,
    ← Equiv.sum_comp (contrEquiv1 dot_S4x512x6_S4x512x512_S4x6x512_1_2_2_1_0_0 512 rfl rfl).symm]
  refine Finset.sum_congr rfl fun j _ => ?_
  have c1 := contrEquiv1_symm_val dot_S4x512x6_S4x512x512_S4x6x512_1_2_2_1_0_0 512 rfl rfl j
  have hl : dot_S4x512x6_S4x512x512_S4x6x512_1_2_2_1_0_0.lhsIdx (ix3 p k i)
      ((contrEquiv1 dot_S4x512x6_S4x512x512_S4x6x512_1_2_2_1_0_0 512 rfl rfl).symm j) = ix3 p j k := by
    funext ax; apply Fin.ext
    match ax with
    | ⟨0, _⟩ => exact lhs2_0 _ _
    | ⟨1, _⟩ => exact (lhs2_1 _ _).trans c1
    | ⟨2, _⟩ => exact lhs2_2 _ _
  have hr : dot_S4x512x6_S4x512x512_S4x6x512_1_2_2_1_0_0.rhsIdx (ix3 p k i)
      ((contrEquiv1 dot_S4x512x6_S4x512x512_S4x6x512_1_2_2_1_0_0 512 rfl rfl).symm j) = ix3 p i j := by
    funext ax; apply Fin.ext
    match ax with
    | ⟨0, _⟩ => exact rhs2_0 _ _
    | ⟨1, _⟩ => exact rhs2_1 _ _
    | ⟨2, _⟩ => exact (rhs2_2 _ _).trans c1
  rw [hl, hr]

/-! ## The pieces of the logits store -/

/-- The classifier logits of source row `(p, j)`, column `k`: the row's dot product with column `k` of the matrix. Row
    `512 p + j` of the [2048, ·] view is row `(p, j)` of the [4, 512, ·] one. -/
theorem logits_apply (x : Vec Ideal S4x512x768 .f32) (W : Vec Ideal S768x6 .f32) (p : Fin 4) (j : Fin 512) (k : Fin 6) :
    shapeCast S4x512x6
        (matmul dot_S2048x768_S768x6_S2048x6_1_0_0_1_n_n none
          (shapeCast S2048x768 (truncf (F := Ideal) .bf16 x bitsLt_bf16_f32) shapeCasts_S4x512x768_S2048x768)
          (truncf (F := Ideal) .bf16 W bitsLt_bf16_f32) (constant (F := Ideal) S2048x6 .f32 0x00000000#32))
        shapeCasts_S2048x6_S4x512x6 (ix3 p j k)
      = ∑ e : Fin 768, x (ix3 p j e) * W (ix2 e k) := by
  have hr : 512 * p.val + j.val < 2048 := by have := p.isLt; have := j.isLt; omega
  refine (shapeCast_apply _ _ (ix3 p j k) (ix2 (⟨512 * p.val + j.val, hr⟩ : Fin 2048) k) ?_).trans ?_
  · rw [Shape.rowMajor_val_two, Shape.rowMajor_val_three]
    show (512 * p.val + j.val) * 6 + k.val = (p.val * 512 + j.val) * 6 + k.val
    omega
  refine (mm1_apply _ _ _ k).trans ?_
  refine Finset.sum_congr rfl fun e _ => ?_
  congr 1
  refine (shapeCast_apply _ _ (ix2 (⟨512 * p.val + j.val, hr⟩ : Fin 2048) e) (ix3 p j e) ?_).trans ?_
  · rw [Shape.rowMajor_val_two, Shape.rowMajor_val_three]
    show (p.val * 512 + j.val) * 768 + e.val = (512 * p.val + j.val) * 768 + e.val
    omega
  rfl

/-- The one-hot factor at `(p, i, j)`: whether source row `j` of block row `p` is sent to slot `i`. -/
theorem onehot_apply (t : Vec Ideal S4x1x512 .i32) (p : Fin 4) (i j : Fin 512) :
    truncf (F := Ideal) .bf16
        (sitofp (F := Ideal) .f32
          (extui 32
            (cmpi .eq (iota .tc S4x512x512 32 [1] iota_S4x512x512_d1_w32)
              (broadcastTo S4x512x512 (shapeCast S4x1x512 (k0_pay1 (F := Ideal) t) shapeCasts_S4x512_S4x1x512)
                broadcasts_S4x1x512_S4x512x512))
            natLt_1_32))
        bitsLt_bf16_f32 (ix3 p i j)
      = if t (ix3 p (0 : Fin 1) j) = BitVec.ofNat 32 i.val then (1 : EReal) else 0 := by
  rw [truncf_apply, sitofp_apply, extui_apply]
  have hb : broadcastTo S4x512x512 (shapeCast S4x1x512 (k0_pay1 (F := Ideal) t) shapeCasts_S4x512_S4x1x512)
      broadcasts_S4x1x512_S4x512x512 (ix3 p i j) = t (ix3 p (0 : Fin 1) j) := by
    refine (broadcastTo_apply _ _ (ix3 p i j) (ix3 p (0 : Fin 1) j) ?_).trans ?_
    · intro a
      match a with
      | ⟨0, _⟩ => rfl
      | ⟨1, _⟩ => rfl
      | ⟨2, _⟩ => rfl
    refine (shapeCast_apply _ _ (ix3 p (0 : Fin 1) j) (ix2 p j) ?_).trans (pay1_apply t p j)
    rw [Shape.rowMajor_val_two, Shape.rowMajor_val_three]
    show p.val * 512 + j.val = (p.val * 1 + 0) * 512 + j.val
    omega
  show FloatOps.sitofp .f32 ((IntOp.cmpi .eq (iota .tc S4x512x512 32 [1] iota_S4x512x512_d1_w32 (ix3 p i j))
    (broadcastTo S4x512x512 (shapeCast S4x1x512 (k0_pay1 (F := Ideal) t) shapeCasts_S4x512_S4x1x512)
      broadcasts_S4x1x512_S4x512x512 (ix3 p i j))).setWidth 32) = _
  rw [hb, iota_single_apply, ind_apply]
  show (if BitVec.ofNat 32 i.val = t (ix3 p (0 : Fin 1) j) then (1 : EReal) else 0) = _
  by_cases h : t (ix3 p (0 : Fin 1) j) = BitVec.ofNat 32 i.val
  · rw [if_pos h, if_pos h.symm]
  · rw [if_neg h, if_neg (fun h' => h h'.symm)]

/-- The bias, reshaped [6] → [1,6,1] and broadcast, reads `bc k` at `(p, k, i)`. -/
theorem bias_apply (bc : Vec Ideal S6 .f32) (p : Fin 4) (k : Fin 6) (i : Fin 512) :
    broadcastTo S4x6x512 (shapeCast S1x6x1 bc shapeCasts_S6_S1x6x1) broadcasts_S1x6x1_S4x6x512 (ix3 p k i) = bc (ix1 k) := by
  refine (broadcastTo_apply _ _ (ix3 p k i) (ix3 (0 : Fin 1) k (0 : Fin 1)) ?_).trans ?_
  · intro a
    match a with
    | ⟨0, _⟩ => rfl
    | ⟨1, _⟩ => rfl
    | ⟨2, _⟩ => rfl
  refine shapeCast_apply _ _ (ix3 (0 : Fin 1) k (0 : Fin 1)) (ix1 k) ?_
  rw [Shape.rowMajor_val_one, Shape.rowMajor_val_three]
  show k.val = (0 * 6 + k.val) * 1 + 0
  omega

/-- The logits store at `(p, k, i)`. -/
theorem pay2_apply (x : Vec Ideal S4x512x768 .f32) (t : Vec Ideal S4x1x512 .i32) (W : Vec Ideal S768x6 .f32)
    (bc : Vec Ideal S6 .f32) (p : Fin 4) (k : Fin 6) (i : Fin 512) :
    k0_pay2 (F := Ideal) x t W bc (ix3 p k i)
      = (∑ j : Fin 512, (∑ e : Fin 768, x (ix3 p j e) * W (ix2 e k))
            * (if t (ix3 p (0 : Fin 1) j) = BitVec.ofNat 32 i.val then (1 : EReal) else 0))
        + bc (ix1 k) := by
  unfold k0_pay2
  rw [addf_apply]
  congr 1
  · refine (mm2_apply _ _ p k i).trans ?_
    refine Finset.sum_congr rfl fun j _ => ?_
    rw [truncf_apply, logits_apply, onehot_apply]
  · exact bias_apply bc p k i

/-- The selected-row store at `(p, 0, e)`. -/
theorem pay3_apply (x : Vec Ideal S4x512x768 .f32) (t : Vec Ideal S4x1x512 .i32) (p : Fin 4) (e : Fin 768) :
    k0_pay3 (F := Ideal) x t (ix3 p (0 : Fin 1) e)
      = ∑ j : Fin 512, x (ix3 p j e) * (if t (ix3 p (0 : Fin 1) j) = 0#32 then (1 : EReal) else 0) := by
  unfold k0_pay3
  refine (shapeCast_apply _ _ (ix3 p (0 : Fin 1) e) (ix2 p e) ?_).trans ?_
  · rw [Shape.rowMajor_val_two, Shape.rowMajor_val_three]
    show p.val * 768 + e.val = (p.val * 1 + 0) * 768 + e.val
    omega
  refine (Ideal.multiReduction_add_single _ _ reduces_S4x512x768_S4x768 _ _ (ix2 p e)).trans ?_
  show ∑ j : Fin 512, _ = _
  refine Finset.sum_congr rfl fun j _ => ?_
  have hl : reduces_S4x512x768_S4x768.lift (ix2 p e) j = ix3 p j e := by
    funext a; apply Fin.ext
    match a with
    | ⟨0, _⟩ => rfl
    | ⟨1, _⟩ => rfl
    | ⟨2, _⟩ => rfl
  rw [hl, mulf_apply]
  congr 1
  refine (broadcastTo_apply _ _ (ix3 p j e) (ix3 p j (0 : Fin 1)) ?_).trans ?_
  · intro a
    match a with
    | ⟨0, _⟩ => rfl
    | ⟨1, _⟩ => rfl
    | ⟨2, _⟩ => rfl
  refine (shapeCast_apply _ _ (ix3 p j (0 : Fin 1)) (ix2 p j) ?_).trans ?_
  · rw [Shape.rowMajor_val_two, Shape.rowMajor_val_three]
    show p.val * 512 + j.val = (p.val * 512 + j.val) * 1 + 0
    omega
  rw [sitofp_apply, extui_apply]
  show FloatOps.sitofp .f32 ((IntOp.cmpi .eq (k0_pay1 t (ix2 p j)) (broadcast S4x512 0#32 (ix2 p j))).setWidth 32) = _
  rw [pay1_apply, broadcast_apply, ind_apply]

end Cert.KernelIdeal.Pay

end
-- ==== Proof.KBlocks.lean ====
/-
  From blocks to arrays: what the two output arrays of the kernel region hold after the run.

  Grid point `t` works on batches `4 t … 4 t + 3`: its input blocks are those batches of the activations and of the
  slots, and the whole classifier matrix and bias; it writes those batches of the two outputs.  Each output block is
  the restriction of ONE whole-array function of the region's input arrays (`G4`, `G5`), and the sixteen blocks
  cover each output array, so after the run the arrays are those functions.
-/
import proofs.«430234_j70746701300093_3_alg».proof.Proof.Gen.KernelIdeal.Frame
import proofs.«430234_j70746701300093_3_alg».proof.Proof.KPay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The logits array `[64, 6, 512]` as one function of the region's inputs: at `(b, k, i)` the logits of the source
    rows of batch `b` summed against the indicator "sent to slot `i`", plus the bias. -/
def G4 (X : S64x512x768.Idx → EReal) (T : S64x1x512.Idx → BitVec 32) (W : S768x6.Idx → EReal) (bc : S6.Idx → EReal) :
    S64x6x512.Idx → EReal := fun y =>
  (∑ j : Fin 512, (∑ e : Fin 768, X (ix3 (y 0 : Fin 64) j e) * W (ix2 e (y 1 : Fin 6)))
      * (if T (ix3 (y 0 : Fin 64) (0 : Fin 1) j) = BitVec.ofNat 32 (y 2).val then (1 : EReal) else 0))
    + bc (ix1 (y 1 : Fin 6))

/-- The selected-row array `[64, 1, 768]`: at `(b, 0, e)` feature `e` of the source rows of batch `b` summed against
    the indicator "sent to slot 0". -/
def G5 (X : S64x512x768.Idx → EReal) (T : S64x1x512.Idx → BitVec 32) : S64x1x768.Idx → EReal := fun y =>
  ∑ j : Fin 512, X (ix3 (y 0 : Fin 64) j (y 2 : Fin 768))
    * (if T (ix3 (y 0 : Fin 64) (0 : Fin 1) j) = 0#32 then (1 : EReal) else 0)

theorem N16 : cfg0.N = 16 := N_0

/-- The region's input arrays and each point's input blocks, at their literal types. -/
abbrev xarr (c : Dev nD) : Vec Ideal S64x512x768 .f32 := V m c main_arg0
abbrev tarr (c : Dev nD) : Vec Ideal S64x1x512 .i32 := V m c main_v6
abbrev warr (c : Dev nD) : Vec Ideal S768x6 .f32 := V m c main_arg2
abbrev barr (c : Dev nD) : Vec Ideal S6 .f32 := V m c main_arg3
abbrev xblk (c : Dev nD) (t : Fin cfg0.N) : Vec Ideal S4x512x768 .f32 := iblk m c 0 t
abbrev tblk (c : Dev nD) (t : Fin cfg0.N) : Vec Ideal S4x1x512 .i32 := iblk m c 1 t
abbrev wblk (c : Dev nD) (t : Fin cfg0.N) : Vec Ideal S768x6 .f32 := iblk m c 2 t
abbrev bblk (c : Dev nD) (t : Fin cfg0.N) : Vec Ideal S6 .f32 := iblk m c 3 t

/-- Every window that moves with the grid is at block `t` on its first axis and block 0 on the others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 1) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The activations' block at point `t` is batches `4 t … 4 t + 3` of the array. -/
theorem iblk0_apply (c : Dev nD) (t : Fin cfg0.N) (p : Fin 4) (j : Fin 512) (e : Fin 768) (b : Fin 64)
    (hb : b.val = 4 * t.val + p.val) :
    xblk m c t (ix3 p j e) = xarr m c (ix3 b j e) := by
  obtain ⟨⟨h0, h1, h2⟩, -⟩ := idx_facts t
  show iblk m c 0 t _ = V m c main_arg0 _
  unfold iblk
  rw [View.read_apply]
  show V m c main_arg0 _ = V m c main_arg0 _
  congr 1
  funext a
  apply Fin.ext
  match a with
  | ⟨0, _⟩ => show win0_0.index t 0 * 4 + 1 * p.val = b.val; rw [h0, hb]; omega
  | ⟨1, _⟩ => show win0_0.index t 1 * 512 + 1 * j.val = j.val; rw [h1]; omega
  | ⟨2, _⟩ => show win0_0.index t 2 * 768 + 1 * e.val = e.val; rw [h2]; omega

/-- The slots' block at point `t`. -/
theorem iblk1_apply (c : Dev nD) (t : Fin cfg0.N) (p : Fin 4) (j : Fin 512) (b : Fin 64)
    (hb : b.val = 4 * t.val + p.val) :
    tblk m c t (ix3 p (0 : Fin 1) j) = tarr m c (ix3 b (0 : Fin 1) j) := by
  obtain ⟨-, ⟨h0, h1, h2⟩, -⟩ := idx_facts t
  show iblk m c 1 t _ = V m c main_v6 _
  unfold iblk
  rw [View.read_apply]
  show V m c main_v6 _ = V m c main_v6 _
  congr 1
  funext a
  apply Fin.ext
  match a with
  | ⟨0, _⟩ => show win0_1.index t 0 * 4 + 1 * p.val = b.val; rw [h0, hb]; omega
  | ⟨1, _⟩ => show win0_1.index t 1 * 1 + 1 * 0 = 0; rw [h1]
  | ⟨2, _⟩ => show win0_1.index t 2 * 512 + 1 * j.val = j.val; rw [h2]; omega

/-- The classifier matrix's block is the whole matrix at every point. -/
theorem iblk2_apply (c : Dev nD) (t : Fin cfg0.N) (e : Fin 768) (k : Fin 6) :
    wblk m c t (ix2 e k) = warr m c (ix2 e k) := by
  obtain ⟨-, -, ⟨h0, h1⟩, -⟩ := idx_facts t
  show iblk m c 2 t _ = V m c main_arg2 _
  unfold iblk
  rw [View.read_apply]
  show V m c main_arg2 _ = V m c main_arg2 _
  congr 1
  funext a
  apply Fin.ext
  match a with
  | ⟨0, _⟩ => show win0_2.index t 0 * 768 + 1 * e.val = e.val; rw [h0]; omega
  | ⟨1, _⟩ => show win0_2.index t 1 * 6 + 1 * k.val = k.val; rw [h1]; omega

/-- The bias's block is the whole bias at every point. -/
theorem iblk3_apply (c : Dev nD) (t : Fin cfg0.N) (k : Fin 6) :
    bblk m c t (ix1 k) = barr m c (ix1 k) := by
  obtain ⟨-, -, -, h0, -⟩ := idx_facts t
  show iblk m c 3 t _ = V m c main_arg3 _
  unfold iblk
  rw [View.read_apply]
  show V m c main_arg3 _ = V m c main_arg3 _
  congr 1
  funext a
  apply Fin.ext
  match a with
  | ⟨0, _⟩ => show win0_3.index t 0 * 6 + 1 * k.val = k.val; rw [h0]; omega

/-- WHAT POINT `t` WRITES BACK to the logits array is block `t` of `G4` of the region's input arrays. -/
theorem flushed4_eq (c : Dev nD) (t : Fin cfg0.N) :
    (dats m 0 c).flushed 4 t = ((cfg0.win 4).blk t).view.read (Elt Ideal)
      (G4 (xarr m c) (tarr m c) (warr m c) (barr m c)) := by
  show (cfg0.win 4).cut (grid0.coords t) ((dats m 0 c).after 4 t) = _
  rw [after0_4]
  unfold out0_4
  rw [View.canon_unit_zero hz3]
  simp only [View.ld_unit_zero (S := S4x512x768) hz3, View.ld_unit_zero (S := S4x1x512) hz3,
    View.ld_unit_zero (S := S768x6) hz2, View.ld_unit_zero (S := S6) hz1]
  obtain ⟨-, -, -, -, ⟨h0, h1, h2⟩, -⟩ := idx_facts t
  have ht : t.val < 16 := Nat.lt_of_lt_of_eq t.isLt N16
  funext y
  obtain ⟨p, k, i, rfl⟩ : ∃ (p : Fin 4) (k : Fin 6) (i : Fin 512), y = ix3 p k i := ⟨y 0, y 1, y 2, eq_ix3 y⟩
  have hp : p.val < 4 := p.isLt
  let b : Fin 64 := ⟨4 * t.val + p.val, by omega⟩
  have hemb : ((cfg0.win 4).blk t).view.emb (ix3 p k i) = (ix3 b k i : S64x6x512.Idx) := by
    funext a
    apply Fin.ext
    match a with
    | ⟨0, _⟩ => show win0_4.index t 0 * 4 + 1 * p.val = 4 * t.val + p.val; rw [h0]; omega
    | ⟨1, _⟩ => show win0_4.index t 1 * 6 + 1 * k.val = k.val; rw [h1]; omega
    | ⟨2, _⟩ => show win0_4.index t 2 * 512 + 1 * i.val = i.val; rw [h2]; omega
  show k0_pay2 (F := Ideal) (xblk m c t) (tblk m c t) (wblk m c t) (bblk m c t) (ix3 p k i) = _
  refine (Cert.KernelIdeal.Pay.pay2_apply (xblk m c t) (tblk m c t) (wblk m c t) (bblk m c t) p k i).trans ?_
  rw [View.read_apply, hemb]
  show _ = (∑ j : Fin 512, (∑ e : Fin 768, xarr m c (ix3 b j e) * warr m c (ix2 e k))
      * (if tarr m c (ix3 b (0 : Fin 1) j) = BitVec.ofNat 32 i.val then (1 : EReal) else 0))
    + barr m c (ix1 k)
  simp only [fun j e => iblk0_apply m c t p j e b rfl, fun j => iblk1_apply m c t p j b rfl,
    fun e => iblk2_apply m c t e k, iblk3_apply m c t k]

/-- WHAT POINT `t` WRITES BACK to the selected-row array is block `t` of `G5` of the region's input arrays. -/
theorem flushed5_eq (c : Dev nD) (t : Fin cfg0.N) :
    (dats m 0 c).flushed 5 t = ((cfg0.win 5).blk t).view.read (Elt Ideal) (G5 (xarr m c) (tarr m c)) := by
  show (cfg0.win 5).cut (grid0.coords t) ((dats m 0 c).after 5 t) = _
  rw [after0_5]
  unfold out0_5
  rw [View.canon_unit_zero hz3]
  simp only [View.ld_unit_zero (S := S4x512x768) hz3, View.ld_unit_zero (S := S4x1x512) hz3]
  obtain ⟨-, -, -, -, -, ⟨h0, h1, h2⟩⟩ := idx_facts t
  have ht : t.val < 16 := Nat.lt_of_lt_of_eq t.isLt N16
  funext y
  obtain ⟨p, z, e, rfl⟩ : ∃ (p : Fin 4) (z : Fin 1) (e : Fin 768), y = ix3 p z e := ⟨y 0, y 1, y 2, eq_ix3 y⟩
  obtain rfl : z = 0 := Subsingleton.elim _ _
  have hp : p.val < 4 := p.isLt
  let b : Fin 64 := ⟨4 * t.val + p.val, by omega⟩
  have hemb : ((cfg0.win 5).blk t).view.emb (ix3 p (0 : Fin 1) e) = (ix3 b (0 : Fin 1) e : S64x1x768.Idx) := by
    funext a
    apply Fin.ext
    match a with
    | ⟨0, _⟩ => show win0_5.index t 0 * 4 + 1 * p.val = 4 * t.val + p.val; rw [h0]; omega
    | ⟨1, _⟩ => show win0_5.index t 1 * 1 + 1 * 0 = 0; rw [h1]
    | ⟨2, _⟩ => show win0_5.index t 2 * 768 + 1 * e.val = e.val; rw [h2]; omega
  show k0_pay3 (F := Ideal) (xblk m c t) (tblk m c t) (ix3 p (0 : Fin 1) e) = _
  refine (Cert.KernelIdeal.Pay.pay3_apply (xblk m c t) (tblk m c t) p e).trans ?_
  rw [View.read_apply, hemb]
  show _ = ∑ j : Fin 512, xarr m c (ix3 b j e)
      * (if tarr m c (ix3 b (0 : Fin 1) j) = 0#32 then (1 : EReal) else 0)
  simp only [fun j => iblk0_apply m c t p j e b rfl, fun j => iblk1_apply m c t p j b rfl]

/-- An index of the logits array is in point `t`'s block iff each coordinate is in the block's range on its axis. -/
theorem mem_blk4 (t : Fin cfg0.N) (i : S64x6x512.Idx) :
    i ∈ ((cfg0.win 4).blk t).view.set ↔ ∀ a : Fin 3, win0_4.index t a * S4x6x512.size a ≤ (i a).val ∧ (i a).val < win0_4.index t a * S4x6x512.size a + S4x6x512.size a := by
  show i ∈ ((View.whole main_v7_0).slice (win0_4.rect t)).set ↔ _
  rw [View.set_slice_whole, Rect.mem_set_unit]
  exact Iff.rfl

theorem mem_blk5 (t : Fin cfg0.N) (i : S64x1x768.Idx) :
    i ∈ ((cfg0.win 5).blk t).view.set ↔ ∀ a : Fin 3, win0_5.index t a * S4x1x768.size a ≤ (i a).val ∧ (i a).val < win0_5.index t a * S4x1x768.size a + S4x1x768.size a := by
  show i ∈ ((View.whole main_v7_1).slice (win0_5.rect t)).set ↔ _
  rw [View.set_slice_whole, Rect.mem_set_unit]
  exact Iff.rfl

/-- Batch `b` lies in the block of point `b / 4`: the sixteen blocks cover the logits array. -/
theorem cover4 (i : S64x6x512.Idx) : ∃ t : Fin cfg0.N, (cfg0.win 4).flush t = true ∧ i ∈ ((cfg0.win 4).blk t).view.set := by
  have hi0 : (i 0).val < 64 := (i 0).isLt
  have hi1 : (i 1).val < 6 := (i 1).isLt
  have hi2 : (i 2).val < 512 := (i 2).isLt
  let t : Fin cfg0.N := ⟨(i 0).val / 4, by rw [N16]; omega⟩
  obtain ⟨-, -, -, -, ⟨h0, h1, h2⟩, -⟩ := idx_facts t
  have htv : t.val = (i 0).val / 4 := rfl
  refine ⟨t, flush0_4 t, ?_⟩
  rw [mem_blk4]
  intro a
  match a with
  | ⟨0, _⟩ => show win0_4.index t 0 * 4 ≤ (i 0).val ∧ (i 0).val < win0_4.index t 0 * 4 + 4; rw [h0, htv]; omega
  | ⟨1, _⟩ => show win0_4.index t 1 * 6 ≤ (i 1).val ∧ (i 1).val < win0_4.index t 1 * 6 + 6; rw [h1]; omega
  | ⟨2, _⟩ => show win0_4.index t 2 * 512 ≤ (i 2).val ∧ (i 2).val < win0_4.index t 2 * 512 + 512; rw [h2]; omega

theorem cover5 (i : S64x1x768.Idx) : ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 768 := (i 2).isLt
  let t : Fin cfg0.N := ⟨(i 0).val / 4, by rw [N16]; omega⟩
  obtain ⟨-, -, -, -, -, ⟨h0, h1, h2⟩⟩ := idx_facts t
  have htv : t.val = (i 0).val / 4 := rfl
  refine ⟨t, flush0_5 t, ?_⟩
  rw [mem_blk5]
  intro a
  match a with
  | ⟨0, _⟩ => show win0_5.index t 0 * 4 ≤ (i 0).val ∧ (i 0).val < win0_5.index t 0 * 4 + 4; rw [h0, htv]; omega
  | ⟨1, _⟩ => show win0_5.index t 1 * 1 ≤ (i 1).val ∧ (i 1).val < win0_5.index t 1 * 1 + 1; rw [h1]; omega
  | ⟨2, _⟩ => show win0_5.index t 2 * 768 ≤ (i 2).val ∧ (i 2).val < win0_5.index t 2 * 768 + 768; rw [h2]; omega

/-- THE LOGITS ARRAY after the run is `G4` of the region's input arrays. -/
theorem final4 (c : Dev nD) : (dats m 0 c).arrAt 4 cfg0.N = G4 (xarr m c) (tarr m c) (warr m c) (barr m c) :=
  (dats m 0 c).arrAt_eq_of_cover 4 (G4 (xarr m c) (tarr m c) (warr m c) (barr m c)) (fun t _ => flushed4_eq m c t) cover4

/-- THE SELECTED-ROW ARRAY after the run is `G5` of the region's input arrays. -/
theorem final5 (c : Dev nD) : (dats m 0 c).arrAt 5 cfg0.N = G5 (xarr m c) (tarr m c) :=
  (dats m 0 c).arrAt_eq_of_cover 5 (G5 (xarr m c) (tarr m c)) (fun t _ => flushed5_eq m c t) cover5

end Cert.KernelIdeal.Val

end
-- ==== Proof.KHost.lean ====
/-
  The host operations around the kernel region, read.

  Before the region the host computes the slots from the mask (the running count, the subtraction, the compare, the
  select) and reshapes them `[64, 512] → [64, 1, 512]`: that is the array the region's second window stages.  After
  the region the host transposes the logits array `[64, 6, 512] → [64, 512, 6]` and applies the pooler and the polarity
  head to the selected-row array reshaped `[64, 1, 768] → [64, 768]`.
-/
import proofs.«430234_j70746701300093_3_alg».proof.Proof.Gen.KernelIdeal.Frame
import proofs.«430234_j70746701300093_3_alg».proof.Proof.Spec
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.Val

-- the windowed sum is compared as a whole on both sides, never opened
attribute [local irreducible] Host.reduceWindow

open Cert.KernelIdeal Cert.KernelIdeal.Gen

variable {F : FTy → Type} [FloatOps F]
variable (m : (ℓ : Loc nD τ sig) → Buf (Elt F) ℓ)

/-- The slots array as the region finds it: the slots of the mask as launched, reshaped. -/
theorem V_main_v6 (c : Dev nD) :
    (V m c main_v6 : S64x1x512.Idx → BitVec 32)
      = shapeCast S64x1x512 (Cert.Compact.tgtOf (m ((c : Thread nD τ).loc main_arg1))) shapeCasts_S64x512_S64x1x512 := by
  dsimp only [Gen.V, Gen.V0]
  simp only [Gen.hostOps0, Gen.hostOps0_1, Gen.hostOps0_2, Gen.hostOps0_3, List.flatten_cons, List.flatten_nil,
    List.append_nil, List.cons_append, List.nil_append]
  after_results
  unfold Cert.Compact.tgtOf Cert.Compact.csum
  rfl

/-- The first result after the host tail: the logits array transposed. -/
theorem tail_v8 (c : Dev nD) :
    (Pipeline.afterTail₀ cfgs (dats m) 0 (V0 m) [hostOps1] c main_v8 : S64x512x6.Idx → Elt F .f32)
      = transpose S64x512x6 [0, 2, 1] ((dats m 0 c).arrAt 4 cfg0.N : S64x6x512.Idx → Elt F .f32)
          transposes_S64x6x512_S64x512x6_0_2_1 := by
  unfold Pipeline.afterTail₀
  show StableHlo.after hostOps1 _ (Proc.devRef .tc main_v8) = _
  after_results
  have h4 : Pipeline.withArrays (cfgs 0).spec c (V0 m c) (fun w => (dats m 0 c).arrAt w (cfgs 0).N)
      (Proc.devRef .tc main_v7_0) = (dats m 0 c).arrAt 4 cfg0.N :=
    Pipeline.withArrays_arr spec0 launch0.win.arr_inj c (V0 m c) (fun w => (dats m 0 c).arrAt w (cfgs 0).N) 4
  rw [h4]

/-- The second result after the host tail: the pooler and the polarity head of the selected rows. -/
theorem tail_v18 (c : Dev nD) :
    (Pipeline.afterTail₀ cfgs (dats m) 0 (V0 m) [hostOps1] c main_v18 : S64x3.Idx → Elt F .f32)
      = Cert.Compact.head
          (shapeCast S64x768 ((dats m 0 c).arrAt 5 cfg0.N : S64x1x768.Idx → Elt F .f32) shapeCasts_S64x1x768_S64x768)
          (m ((c : Thread nD τ).loc main_arg4)) (m ((c : Thread nD τ).loc main_arg5))
          (m ((c : Thread nD τ).loc main_arg6)) (m ((c : Thread nD τ).loc main_arg7)) := by
  unfold Pipeline.afterTail₀
  show StableHlo.after hostOps1 _ (Proc.devRef .tc main_v18) = _
  after_results_simp
  have h5 : Pipeline.withArrays (cfgs 0).spec c (V0 m c) (fun w => (dats m 0 c).arrAt w (cfgs 0).N)
      (Proc.devRef .tc main_v7_1) = (dats m 0 c).arrAt 5 cfg0.N :=
    Pipeline.withArrays_arr spec0 launch0.win.arr_inj c (V0 m c) (fun w => (dats m 0 c).arrAt w (cfgs 0).N) 5
  have a4 : Pipeline.withArrays (cfgs 0).spec c (V0 m c) (fun w => (dats m 0 c).arrAt w (cfgs 0).N)
      (Proc.devRef .tc main_arg4) = m ((c : Thread nD τ).loc main_arg4) :=
    (Pipeline.withArrays_of_ne (cfgs 0).spec c (V0 m c) (fun w => (dats m 0 c).arrAt w (cfgs 0).N) main_arg4
      (by exact (by decide : ∀ w, Pipeline.arrRef spec0 w ≠ main_arg4))).trans (V_main_arg4 m c)
  have a5 : Pipeline.withArrays (cfgs 0).spec c (V0 m c) (fun w => (dats m 0 c).arrAt w (cfgs 0).N)
      (Proc.devRef .tc main_arg5) = m ((c : Thread nD τ).loc main_arg5) :=
    (Pipeline.withArrays_of_ne (cfgs 0).spec c (V0 m c) (fun w => (dats m 0 c).arrAt w (cfgs 0).N) main_arg5
      (by exact (by decide : ∀ w, Pipeline.arrRef spec0 w ≠ main_arg5))).trans (V_main_arg5 m c)
  have a6 : Pipeline.withArrays (cfgs 0).spec c (V0 m c) (fun w => (dats m 0 c).arrAt w (cfgs 0).N)
      (Proc.devRef .tc main_arg6) = m ((c : Thread nD τ).loc main_arg6) :=
    (Pipeline.withArrays_of_ne (cfgs 0).spec c (V0 m c) (fun w => (dats m 0 c).arrAt w (cfgs 0).N) main_arg6
      (by exact (by decide : ∀ w, Pipeline.arrRef spec0 w ≠ main_arg6))).trans (V_main_arg6 m c)
  have a7 : Pipeline.withArrays (cfgs 0).spec c (V0 m c) (fun w => (dats m 0 c).arrAt w (cfgs 0).N)
      (Proc.devRef .tc main_arg7) = m ((c : Thread nD τ).loc main_arg7) :=
    (Pipeline.withArrays_of_ne (cfgs 0).spec c (V0 m c) (fun w => (dats m 0 c).arrAt w (cfgs 0).N) main_arg7
      (by exact (by decide : ∀ w, Pipeline.arrRef spec0 w ≠ main_arg7))).trans (V_main_arg7 m c)
  simp only [h5, a4, a5, a6, a7]
  unfold Cert.Compact.head
  rfl

end Cert.KernelIdeal.Val

end
-- ==== Proof.KRun.lean ====
/-
  The idealized kernel program's run, read: both results as functions of the arguments.

  After the run the first result is the logits array transposed to `[64, 512, 6]` and the second is the pooler and the
  polarity head of the selected rows, each output array of the region being the whole-array function of the blocks'
  proof (`final4`, `final5`); the arguments end as launched.
-/
import proofs.«430234_j70746701300093_3_alg».proof.Proof.KBlocks
import proofs.«430234_j70746701300093_3_alg».proof.Proof.KHost

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The first result: the logits in the reference's layout `[64, 512, 6]`. -/
def ateK (c : Dev nD) : S64x512x6.Idx → EReal :=
  transpose S64x512x6 [0, 2, 1] (G4 (xarr m c) (tarr m c) (warr m c) (barr m c)) transposes_S64x6x512_S64x512x6_0_2_1

/-- The second result: the pooler and the polarity head of the selected rows. -/
def apcK (c : Dev nD) : S64x3.Idx → EReal :=
  Cert.Compact.head (F := Ideal) (shapeCast S64x768 (G5 (xarr m c) (tarr m c)) shapeCasts_S64x1x768_S64x768)
    (m ((c : Thread nD τ).loc main_arg4)) (m ((c : Thread nD τ).loc main_arg5))
    (m ((c : Thread nD τ).loc main_arg6)) (m ((c : Thread nD τ).loc main_arg7))

/-- Every weakly fair execution terminates with the two results at `ateK`, `apcK` and the arguments unchanged. -/
theorem run : θ_run defs (onTc (τ := τ) (main (F := Ideal))) ⟨m, fun _ => 0, ρ⟩ fun r => ∀ c : Dev nD,
      r.2.mem ((c.tc : Thread nD τ).loc main_v8) = ateK m c
      ∧ r.2.mem ((c.tc : Thread nD τ).loc main_v18) = apcK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      ((h c).2 main_v8 (Pipeline.mem_restRefs_of main_v8 (by decide) (by decide))).trans
        ((tail_v8 m c).trans (by rw [final4]; rfl)),
      ((h c).2 main_v18 (Pipeline.mem_restRefs_of main_v18 (by decide) (by decide))).trans
        ((tail_v18 m c).trans (by rw [final5]; rfl)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Val

end
-- ==== Proof.RefAte.lean ====
/-
  The reference's two results at an index, over the compacted tensor.

  The logits at `(b, i, k)` are the dot product of row `(b, i)` of the compacted tensor with column `k` of the classifier
  matrix, plus the bias; the pooler's input at `(b, e)` is entry `(b, 0, e)` of the compacted tensor.
-/
import proofs.«430234_j70746701300093_3_alg».proof.Proof.RefRun
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Hand

open Cert.ReferenceIdeal Cert.ReferenceIdeal.Gen Idealize.ShloMosaic Idealize.ShloMosaic.ValueIdx

/-! ## The host product [64,512,768] × [768,6] at an index -/

theorem lhsd_0 (j : S64x512x6.Idx) (c : dot_S64x512x768_S768x6_S64x512x6_2_0_01_1_n_n.contr.Idx) :
    (dot_S64x512x768_S768x6_S64x512x6_2_0_01_1_n_n.lhsIdx j c 0 : ℕ) = j 0 := by
  simp [DotDims.lhsIdx, dot_S64x512x768_S768x6_S64x512x6_2_0_01_1_n_n]; rfl
theorem lhsd_1 (j : S64x512x6.Idx) (c : dot_S64x512x768_S768x6_S64x512x6_2_0_01_1_n_n.contr.Idx) :
    (dot_S64x512x768_S768x6_S64x512x6_2_0_01_1_n_n.lhsIdx j c 1 : ℕ) = j 1 := by
  simp [DotDims.lhsIdx, dot_S64x512x768_S768x6_S64x512x6_2_0_01_1_n_n]; rfl
theorem lhsd_2 (j : S64x512x6.Idx) (c : dot_S64x512x768_S768x6_S64x512x6_2_0_01_1_n_n.contr.Idx) :
    (dot_S64x512x768_S768x6_S64x512x6_2_0_01_1_n_n.lhsIdx j c 2 : ℕ) = c ⟨0, by decide⟩ :=
  dot_S64x512x768_S768x6_S64x512x6_2_0_01_1_n_n.lhsIdx_val_of_single (cl := 2) rfl j c
theorem rhsd_0 (j : S64x512x6.Idx) (c : dot_S64x512x768_S768x6_S64x512x6_2_0_01_1_n_n.contr.Idx) :
    (dot_S64x512x768_S768x6_S64x512x6_2_0_01_1_n_n.rhsIdx j c 0 : ℕ) = c ⟨0, by decide⟩ :=
  dot_S64x512x768_S768x6_S64x512x6_2_0_01_1_n_n.rhsIdx_val_of_single (cr := 0) rfl j c
theorem rhsd_1 (j : S64x512x6.Idx) (c : dot_S64x512x768_S768x6_S64x512x6_2_0_01_1_n_n.contr.Idx) :
    (dot_S64x512x768_S768x6_S64x512x6_2_0_01_1_n_n.rhsIdx j c 1 : ℕ) = j 2 := by
  simp [DotDims.rhsIdx, dot_S64x512x768_S768x6_S64x512x6_2_0_01_1_n_n]; rfl

/-- Entry `(b, i, k)` of the product is the sum over the 768 contracted coordinates of row `(b, i)` of the left
    operand times column `k` of the right one. -/
theorem dot_apply (C : FVec Ideal S64x512x768 .f32) (W : FVec Ideal S768x6 .f32) (b : Fin 64) (i : Fin 512) (k : Fin 6) :
    Host.dotGeneral dot_S64x512x768_S768x6_S64x512x6_2_0_01_1_n_n none C W (ix3 b i k)
      = ∑ e : Fin 768, C (ix3 b i e) * W (ix2 e k) := by
  show FloatOps.dotGeneral _ none _ C W (ix3 b i k) = _
  rw [Ideal.dotGeneral_apply,
    ← Equiv.sum_comp (contrEquiv1 dot_S64x512x768_S768x6_S64x512x6_2_0_01_1_n_n 768 rfl rfl).symm]
  refine Finset.sum_congr rfl fun e _ => ?_
  have c1 := contrEquiv1_symm_val dot_S64x512x768_S768x6_S64x512x6_2_0_01_1_n_n 768 rfl rfl e
  have hl : dot_S64x512x768_S768x6_S64x512x6_2_0_01_1_n_n.lhsIdx (ix3 b i k)
      ((contrEquiv1 dot_S64x512x768_S768x6_S64x512x6_2_0_01_1_n_n 768 rfl rfl).symm e) = ix3 b i e := by
    funext ax; apply Fin.ext
    match ax with
    | ⟨0, _⟩ => exact lhsd_0 _ _
    | ⟨1, _⟩ => exact lhsd_1 _ _
    | ⟨2, _⟩ => exact (lhsd_2 _ _).trans c1
  have hr : dot_S64x512x768_S768x6_S64x512x6_2_0_01_1_n_n.rhsIdx (ix3 b i k)
      ((contrEquiv1 dot_S64x512x768_S768x6_S64x512x6_2_0_01_1_n_n 768 rfl rfl).symm e) = ix2 e k := by
    funext ax; apply Fin.ext
    match ax with
    | ⟨0, _⟩ => exact (rhsd_0 _ _).trans c1
    | ⟨1, _⟩ => exact rhsd_1 _ _
  rw [hl, hr]

/-- The bias, broadcast [6] → [1,1,6] → [64,512,6], reads `bc k` at `(b, i, k)`. -/
theorem bias_apply (bc : FVec Ideal S6 .f32) (b : Fin 64) (i : Fin 512) (k : Fin 6) :
    broadcastInDim S64x512x6 ![0, 1, 2] bcast_S1x1x6_S64x512x6_0_1_2 (broadcastInDim S1x1x6 ![2] bcast_S6_S1x1x6_2 bc)
        (ix3 b i k) = bc (ix1 k) := by
  refine (broadcastInDim_apply _ _ _ (ix3 b i k) (ix3 (0 : Fin 1) (0 : Fin 1) k) ?_).trans ?_
  · intro a
    match a with
    | ⟨0, _⟩ => rfl
    | ⟨1, _⟩ => rfl
    | ⟨2, _⟩ => rfl
  refine broadcastInDim_apply _ _ _ (ix3 (0 : Fin 1) (0 : Fin 1) k) (ix1 k) ?_
  intro a
  match a with
  | ⟨0, _⟩ => rfl

/-- The logits at `(b, i, k)`. -/
theorem ate_apply (x : FVec Ideal S64x512x768 .f32) (vid : IVec S64x512 32) (W : FVec Ideal S768x6 .f32)
    (bc : FVec Ideal S6 .f32) (b : Fin 64) (i : Fin 512) (k : Fin 6) :
    ate (F := Ideal) x vid W bc (ix3 b i k)
      = (∑ e : Fin 768, comp (F := Ideal) x vid (ix3 b i e) * W (ix2 e k)) + bc (ix1 k) := by
  unfold ate
  generalize comp (F := Ideal) x vid = C
  rw [addf_apply]
  congr 1
  · exact dot_apply C W b i k
  · exact bias_apply bc b i k

/-- The pooler's input at `(b, e)`. -/
theorem row0_apply (x : FVec Ideal S64x512x768 .f32) (vid : IVec S64x512 32) (b : Fin 64) (e : Fin 768) :
    row0 (F := Ideal) x vid (ix2 b e) = comp (F := Ideal) x vid (ix3 b (0 : Fin 512) e) := by
  unfold row0
  generalize comp (F := Ideal) x vid = C
  refine (shapeCast_apply _ _ (ix2 b e) (ix3 b (0 : Fin 1) e) ?_).trans ?_
  · rw [Shape.rowMajor_val_two, Shape.rowMajor_val_three]
    show (b.val * 1 + 0) * 768 + e.val = b.val * 768 + e.val
    omega
  refine extractStridedSlice_apply _ _ _ (ix3 b (0 : Fin 1) e) (ix3 b (0 : Fin 512) e) ?_
  intro a
  match a with
  | ⟨0, _⟩ => exact (Nat.zero_add _).symm
  | ⟨1, _⟩ => rfl
  | ⟨2, _⟩ => exact (Nat.zero_add _).symm

end Cert.ReferenceIdeal.Hand

end
-- ==== Proof.Scatter.lean ====
/-
  Reading a set-scatter at an index.

  `Host.scatter d (fun _ u => u) x idx upd` walks the update indices in row-major order and overwrites the
  operand at each update's landing index.  At an operand index `i` that exactly one update lands on, the result
  is that update's value, whatever the order; at an index no update lands on it is the operand's own entry.
  Specialised to the compaction scatter of this certificate (updates `[64, 512, 768]` landing at
  `(row, slot, e)` read off an index tensor `[64, 512, 2]`), with slots pairwise distinct where in range.
-/
import Idealize.ShloMosaic.PureOps
import Idealize.ShloMosaic.Lib.ValueIdx
import proofs.«430234_j70746701300093_3_alg».proof.Proof.Spec

noncomputable section

namespace Cert.Compact

open Idealize.ShloMosaic Idealize.ShloMosaic.ValueIdx

/-- A left fold whose every step keeps the value at `i` keeps it. -/
private theorem foldl_keep {κ ι α : Type} (g : (κ → α) → ι → (κ → α)) (i : κ) :
    ∀ (l : List ι) (r : κ → α), (∀ n ∈ l, ∀ r, g r n i = r i) → l.foldl g r i = r i
  | [], _, _ => rfl
  | a :: t, r, h => by
      rw [List.foldl_cons, foldl_keep g i t (g r a) (fun n hn => h n (List.mem_cons_of_mem _ hn))]
      exact h a List.mem_cons_self r

/-- A left fold over a list without repetition in which exactly one step, `n0`, writes `v` at `i` and every other
    step keeps the value there, ends with `v` at `i`. -/
private theorem foldl_unique {κ ι α : Type} (g : (κ → α) → ι → (κ → α)) (i : κ) (n0 : ι) (v : α)
    (hv : ∀ r, g r n0 i = v) :
    ∀ (l : List ι) (r : κ → α), l.Nodup → n0 ∈ l → (∀ n ∈ l, n ≠ n0 → ∀ r, g r n i = r i) → l.foldl g r i = v
  | [], _, _, hm, _ => absurd hm List.not_mem_nil
  | a :: t, r, hnd, hm, h => by
      rw [List.foldl_cons]
      obtain ⟨hat, hnt⟩ := List.nodup_cons.1 hnd
      by_cases ha : a = n0
      · have hn0 : n0 ∉ t := ha ▸ hat
        rw [foldl_keep g i t (g r a) (fun n hn => h n (List.mem_cons_of_mem _ hn) (fun e => hn0 (e ▸ hn))), ha]
        exact hv r
      · have hm' : n0 ∈ t := by
          rcases List.mem_cons.1 hm with e | e
          · exact absurd e.symm ha
          · exact e
        exact foldl_unique g i n0 v hv t (g r a) hnt hm' (fun n hn => h n (List.mem_cons_of_mem _ hn))

/-- The one update landing on `i` decides the result there. -/
theorem scatter_set_of_unique {α : Type} {s si u : Shape} {w : Nat} (d : ScatterDims s si u) (x : s.Idx → α)
    (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  unfold Host.scatter
  refine foldl_unique _ i (u.rowMajor j0) (upd j0) ?_ _ x (List.nodup_finRange _) (List.mem_finRange _) ?_
  · intro r
    simp only [Equiv.symm_apply_apply, h0, if_true]
  · intro n _ hne r
    cases hres : d.resultIdx? (u.rowMajor.symm n) idx with
    | none => rfl
    | some i' =>
      have hi : i ≠ i' := by
        intro e
        apply hne
        have := huniq _ (e ▸ hres)
        rw [← this, Equiv.apply_symm_apply]
      exact if_neg hi

/-- Where no update lands the operand's entry stays. -/
theorem scatter_set_of_none {α : Type} {s si u : Shape} {w : Nat} (d : ScatterDims s si u) (x : s.Idx → α)
    (idx : IVec si w) (upd : u.Idx → α) (i : s.Idx)
    (hnone : ∀ j, d.resultIdx? j idx ≠ some i) :
    Host.scatter d (fun _ b => b) x idx upd i = x i := by
  unfold Host.scatter
  refine foldl_keep _ i _ x ?_
  intro n _ r
  cases hres : d.resultIdx? (u.rowMajor.symm n) idx with
  | none => rfl
  | some i' =>
    have hi : i ≠ i' := fun e => hnone _ (e ▸ hres)
    exact if_neg hi

/-- The compaction scatter's dimension numbers: the update's last axis is the window, the first two operand axes
    are indexed by the two components of the index vector (axis 2 of the index tensor). -/
def dComp : ScatterDims S64x512x768 S64x512x2 S64x512x768 where
  updateWindowDims := [2]
  insertedWindowDims := [0, 1]
  scatterDimsToOperandDims := [0, 1]
  indexVectorDim := 2
  wf := by decide

/-- The index vector's component `0` for update `(b, j, e)` is read at `(b, j, 0)`. -/
private theorem start0 (idx : IVec S64x512x2 32) (b : Fin 64) (j : Fin 512) (e : Fin 768) :
    dComp.start (ix3 b j e) idx 0 = (idx (ix3 b j (0 : Fin 2))).toInt := by
  unfold ScatterDims.start
  rw [dif_pos (by decide)]
  congr 2
  funext a
  match a with
  | ⟨0, _⟩ => rfl
  | ⟨1, _⟩ => rfl
  | ⟨2, _⟩ => rfl

/-- Its component `1` is read at `(b, j, 1)`. -/
private theorem start1 (idx : IVec S64x512x2 32) (b : Fin 64) (j : Fin 512) (e : Fin 768) :
    dComp.start (ix3 b j e) idx 1 = (idx (ix3 b j (1 : Fin 2))).toInt := by
  unfold ScatterDims.start
  rw [dif_pos (by decide)]
  congr 2
  funext a
  match a with
  | ⟨0, _⟩ => rfl
  | ⟨1, _⟩ => rfl
  | ⟨2, _⟩ => rfl

/-- The last operand axis is not indexed: its window starts at `0`. -/
private theorem start2 (idx : IVec S64x512x2 32) (b : Fin 64) (j : Fin 512) (e : Fin 768) :
    dComp.start (ix3 b j e) idx 2 = 0 := by
  unfold ScatterDims.start
  rw [dif_neg (by decide)]

/-- The first two operand axes are inserted: no window coordinate there. -/
private theorem window0 (b : Fin 64) (j : Fin 512) (e : Fin 768) : dComp.window (ix3 b j e) 0 = 0 := by
  unfold ScatterDims.window
  rw [dif_neg (by decide)]

/-- Likewise on the second. -/
private theorem window1 (b : Fin 64) (j : Fin 512) (e : Fin 768) : dComp.window (ix3 b j e) 1 = 0 := by
  unfold ScatterDims.window
  rw [dif_neg (by decide)]

/-- On the last operand axis the window coordinate is the update's last coordinate. -/
private theorem window2 (b : Fin 64) (j : Fin 512) (e : Fin 768) : dComp.window (ix3 b j e) 2 = e.val := by
  unfold ScatterDims.window
  rw [dif_pos (by decide)]
  rfl

/-- A property of the three axes holds on every axis. -/
private theorem forall_fin3 {P : Fin 3 → Prop} (h0 : P 0) (h1 : P 1) (h2 : P 2) : ∀ a, P a := by
  intro a
  match a with
  | ⟨0, _⟩ => exact h0
  | ⟨1, _⟩ => exact h1
  | ⟨2, _⟩ => exact h2

/-- Update `(b, j, e)` lands on `(b', i', e')` exactly when the two components of its index vector are `b'` and
    `i'` and `e = e'`. -/
private theorem resultIdx_iff (idx : IVec S64x512x2 32) (b : Fin 64) (j : Fin 512) (e : Fin 768)
    (b' : Fin 64) (i' : Fin 512) (e' : Fin 768) :
    dComp.resultIdx? (ix3 b j e) idx = some (ix3 b' i' e') ↔
      (idx (ix3 b j (0 : Fin 2))).toInt = (b'.val : Int) ∧ (idx (ix3 b j (1 : Fin 2))).toInt = (i'.val : Int) ∧ e = e' := by
  unfold ScatterDims.resultIdx?
  have hb' := b'.isLt
  have hi' := i'.isLt
  have he := e.isLt
  have he' := e'.isLt
  have s0 := start0 idx b j e
  have s1 := start1 idx b j e
  have s2 := start2 idx b j e
  have w0 := window0 b j e
  have w1 := window1 b j e
  have w2 := window2 b j e
  split
  · next h =>
    constructor
    · intro heq
      have heq' := Option.some.inj heq
      have e0 : (dComp.start (ix3 b j e) idx 0 + dComp.window (ix3 b j e) 0).toNat = b'.val :=
        congrArg Fin.val (congrFun heq' 0)
      have e1 : (dComp.start (ix3 b j e) idx 1 + dComp.window (ix3 b j e) 1).toNat = i'.val :=
        congrArg Fin.val (congrFun heq' 1)
      have e2 : (dComp.start (ix3 b j e) idx 2 + dComp.window (ix3 b j e) 2).toNat = e'.val :=
        congrArg Fin.val (congrFun heq' 2)
      have h0 := (h 0).1
      have h1 := (h 1).1
      rw [s0, w0] at e0 h0
      rw [s1, w1] at e1 h1
      rw [s2, w2] at e2
      exact ⟨by omega, by omega, Fin.ext (by omega)⟩
    · rintro ⟨h1, h2, h3⟩
      congr 1
      funext a
      revert a
      refine forall_fin3 ?_ ?_ ?_
      · apply Fin.ext
        show (dComp.start (ix3 b j e) idx 0 + dComp.window (ix3 b j e) 0).toNat = b'.val
        rw [s0, w0]; omega
      · apply Fin.ext
        show (dComp.start (ix3 b j e) idx 1 + dComp.window (ix3 b j e) 1).toNat = i'.val
        rw [s1, w1]; omega
      · apply Fin.ext
        show (dComp.start (ix3 b j e) idx 2 + dComp.window (ix3 b j e) 2).toNat = e'.val
        rw [s2, w2, h3]; omega
  · next h =>
    constructor
    · intro heq
      exact absurd heq (by simp)
    · rintro ⟨h1, h2, _⟩
      exfalso
      apply h
      refine forall_fin3 ?_ ?_ ?_
      · rw [s0, w0]
        show _ ∧ _ < ((64 : Nat) : Int)
        omega
      · rw [s1, w1]
        show _ ∧ _ < ((512 : Nat) : Int)
        omega
      · rw [s2, w2]
        show _ ∧ _ < ((768 : Nat) : Int)
        omega

/-- The compacted tensor at `(b, i, e)`: with every row index its own batch, and the slots `T` nonnegative and
    pairwise distinct (within a batch) where below 512, it is the source row sent to slot `i`, or the operand's entry
    if there is none. -/
theorem compact_apply {α : Type} (x : S64x512x768.Idx → α) (z : S64x512x768.Idx → α) (idx : IVec S64x512x2 32)
    (T : IVec S64x512 32)
    (hrow : ∀ (b : Fin 64) (j : Fin 512), (idx (ix3 b j (0 : Fin 2))).toInt = (b.val : Int))
    (hcol : ∀ (b : Fin 64) (j : Fin 512), idx (ix3 b j (1 : Fin 2)) = T (ix2 b j))
    (hnonneg : ∀ (b : Fin 64) (j : Fin 512), 0 ≤ (T (ix2 b j)).toInt)
    (hinj : ∀ (b : Fin 64) (j j' : Fin 512), T (ix2 b j) = T (ix2 b j') → (T (ix2 b j)).toInt < 512 → j = j')
    (b : Fin 64) (i : Fin 512) (e : Fin 768) :
    Host.scatter dComp (fun _ u => u) z idx x (ix3 b i e)
      = if h : ∃ j : Fin 512, (T (ix2 b j)).toInt = (i.val : Int) then x (ix3 b h.choose e) else z (ix3 b i e) := by
  have _ := hnonneg
  have hi := i.isLt
  by_cases h : ∃ j : Fin 512, (T (ix2 b j)).toInt = (i.val : Int)
  · rw [dif_pos h]
    have hj := h.choose_spec
    refine scatter_set_of_unique dComp z idx x (ix3 b i e) (ix3 b h.choose e) ?_ ?_
    · rw [resultIdx_iff]
      exact ⟨hrow b _, by rw [hcol]; exact hj, rfl⟩
    · intro jj hjj
      obtain ⟨b2, j2, e2, rfl⟩ : ∃ (b2 : Fin 64) (j2 : Fin 512) (e2 : Fin 768), jj = ix3 b2 j2 e2 :=
        ⟨jj 0, jj 1, jj 2, eq_ix3 jj⟩
      rw [resultIdx_iff] at hjj
      obtain ⟨h1, h2, h3⟩ := hjj
      have hb : b2 = b := Fin.ext (by have := hrow b2 j2; omega)
      rw [hb] at h2 ⊢
      rw [hcol] at h2
      have hT : T (ix2 b j2) = T (ix2 b h.choose) := BitVec.eq_of_toInt_eq (by rw [h2, hj])
      have hjj1 : j2 = h.choose := hinj b j2 _ hT (by rw [h2]; omega)
      rw [hjj1, h3]
  · rw [dif_neg h]
    refine scatter_set_of_none dComp z idx x (ix3 b i e) ?_
    intro jj hjj
    obtain ⟨b2, j2, e2, rfl⟩ : ∃ (b2 : Fin 64) (j2 : Fin 512) (e2 : Fin 768), jj = ix3 b2 j2 e2 :=
      ⟨jj 0, jj 1, jj 2, eq_ix3 jj⟩
    rw [resultIdx_iff] at hjj
    obtain ⟨h1, h2, _⟩ := hjj
    have hb : b2 = b := Fin.ext (by have := hrow b2 j2; omega)
    rw [hb, hcol] at h2
    exact h ⟨j2, h2⟩

end Cert.Compact

end
-- ==== Proof.Tgt.lean ====
/-
  The slots are in range and pairwise distinct.

  For a mask of zeros and ones the running count at a one is at least one and at most 512, so the slot
  `count - 1` lies in `[0, 512)`; and the count strictly increases from one one to the next, so two source rows of
  one batch sent to the same in-range slot are the same row.  Rows where the mask is zero go to slot 512.
-/
import Idealize.ShloMosaic.PureOps
import Idealize.ShloMosaic.Lib.ValueIdx
import Idealize.ShloMosaic.Lib.WordSum
import Mathlib.Data.BitVec
import Mathlib.Algebra.BigOperators.Fin
import Mathlib.Algebra.Order.BigOperators.Group.Finset
import proofs.«430234_j70746701300093_3_alg».proof.Proof.Spec

noncomputable section

namespace Cert.Compact

open Idealize.ShloMosaic Idealize.ShloMosaic.ValueIdx

/-- A left fold by word addition from zero over all positions is the sum of the terms. -/
private theorem foldl_addi_eq_sum {n : ℕ} (g : Fin n → BitVec 32) :
    (List.finRange n).foldl (fun r i => IntOp.addi r (g i)) 0#32 = ∑ i, g i := by
  rw [Fin.sum_univ_def, List.sum_eq_foldl, List.foldl_map]
  rfl

/-- The window position `w` of the running sum at `(b, j)`: the mask entry it lands on, or zero in the padding. -/
private def winTerm (vid : IVec S64x512 32) (b : Fin 64) (j : Fin 512) (w : (⟨2, ![1, 512]⟩ : Shape).Idx) : BitVec 32 :=
  if hin : ∀ a : Fin 2, (![0, 511] : Fin 2 → ℕ) a ≤ ((ix2 b j (Fin.cast rfl a)).val * (![1, 1] : Fin 2 → ℕ) a + (w a).val)
      ∧ ((ix2 b j (Fin.cast rfl a)).val * (![1, 1] : Fin 2 → ℕ) a + (w a).val) - (![0, 511] : Fin 2 → ℕ) a < S64x512.size a then
    vid fun a => ⟨((ix2 b j (Fin.cast rfl a)).val * (![1, 1] : Fin 2 → ℕ) a + (w a).val) - (![0, 511] : Fin 2 → ℕ) a, (hin a).2⟩
  else 0#32

/-- Window position `(0, n)` at `(b, j)` lands on column `j + n - 511` of batch `b` when `511 ≤ j + n`, and in the
    padding otherwise. -/
private theorem winTerm_ix2 (vid : IVec S64x512 32) (b : Fin 64) (j : Fin 512) (n : Fin 512) :
    winTerm vid b j (ix2 0 n) = if h : 511 ≤ j.val + n.val then vid (ix2 b ⟨j.val + n.val - 511, by omega⟩) else 0#32 := by
  unfold winTerm
  by_cases h : 511 ≤ j.val + n.val
  · rw [dif_pos h]
    split
    · congr 1
      funext a
      match a with
      | ⟨0, _⟩ => apply Fin.ext; show b.val * 1 + 0 - 0 = b.val; omega
      | ⟨1, _⟩ => apply Fin.ext; show j.val * 1 + n.val - 511 = j.val + n.val - 511; omega
    · rename_i hin
      exfalso; apply hin
      rw [Fin.forall_fin_two]
      refine ⟨?_, ?_⟩
      · show 0 ≤ b.val * 1 + 0 ∧ b.val * 1 + 0 - 0 < 64
        omega
      · show 511 ≤ j.val * 1 + n.val ∧ j.val * 1 + n.val - 511 < 512
        omega
  · rw [dif_neg h]
    split
    · rename_i hin
      exfalso; apply h
      have h1 := (hin 1).1
      have h2 : 511 ≤ j.val * 1 + n.val := h1
      omega
    · rfl

/-- The running sum at `(b, j)` is the sum over the 512 window positions of the entry each lands on. -/
private theorem csum_apply (vid : IVec S64x512 32) (b : Fin 64) (j : Fin 512) :
    csum vid (ix2 b j) = ∑ n : Fin 512,
      (if h : 511 ≤ j.val + n.val then vid (ix2 b ⟨j.val + n.val - 511, by omega⟩) else 0#32) := by
  unfold csum Host.reduceWindow
  show (List.finRange (Shape.numel ⟨2, ![1, 512]⟩)).foldl
    (fun r n => IntOp.addi r (winTerm vid b j ((⟨2, ![1, 512]⟩ : Shape).rowMajor.symm n))) 0#32 = _
  rw [foldl_addi_eq_sum (fun n => winTerm vid b j ((⟨2, ![1, 512]⟩ : Shape).rowMajor.symm n)),
    Equiv.sum_comp (⟨2, ![1, 512]⟩ : Shape).rowMajor.symm (winTerm vid b j), sum_idx2, Fin.sum_univ_one]
  exact Finset.sum_congr rfl fun n _ => winTerm_ix2 vid b j n

/-- The mask entry at column `k` of batch `b` as a natural number; zero past the last column. -/
private def ent (vid : IVec S64x512 32) (b : Fin 64) (k : ℕ) : ℕ :=
  if h : k < 512 then (vid (ix2 b ⟨k, h⟩)).toNat else 0

/-- The sum of the first `m` mask entries of batch `b`. -/
private def cnt (vid : IVec S64x512 32) (b : Fin 64) (m : ℕ) : ℕ := ∑ k ∈ Finset.range m, ent vid b k

private theorem cnt_succ (vid : IVec S64x512 32) (b : Fin 64) (m : ℕ) : cnt vid b (m + 1) = cnt vid b m + ent vid b m :=
  Finset.sum_range_succ _ _

private theorem cnt_mono (vid : IVec S64x512 32) (b : Fin 64) {m m' : ℕ} (h : m ≤ m') : cnt vid b m ≤ cnt vid b m' :=
  Finset.sum_le_sum_of_subset (Finset.range_mono h)

private theorem ent_fin (vid : IVec S64x512 32) (b : Fin 64) (j : Fin 512) : ent vid b j.val = (vid (ix2 b j)).toNat := by
  unfold ent
  rw [dif_pos j.isLt]

/-- The window sum of the values, re-indexed by the column each window position lands on. -/
private theorem sum_window_eq_cnt (vid : IVec S64x512 32) (b : Fin 64) (j : Fin 512) :
    (∑ n : Fin 512, (if h : 511 ≤ j.val + n.val then vid (ix2 b ⟨j.val + n.val - 511, by omega⟩) else 0#32).toNat)
      = cnt vid b (j.val + 1) := by
  have e : ∀ n : Fin 512, (if h : 511 ≤ j.val + n.val then vid (ix2 b ⟨j.val + n.val - 511, by omega⟩) else 0#32).toNat
      = (fun n : ℕ => if 511 ≤ j.val + n then ent vid b (j.val + n - 511) else 0) n.val := by
    intro n
    show _ = if 511 ≤ j.val + n.val then ent vid b (j.val + n.val - 511) else 0
    by_cases h : 511 ≤ j.val + n.val
    · rw [dif_pos h, if_pos h]
      unfold ent
      rw [dif_pos (by omega)]
    · rw [dif_neg h, if_neg h]; rfl
  rw [Finset.sum_congr rfl fun n _ => e n, Fin.sum_univ_eq_sum_range (fun n : ℕ => if 511 ≤ j.val + n then ent vid b (j.val + n - 511) else 0) 512,
    ← Finset.sum_filter]
  unfold cnt
  refine Finset.sum_nbij' (fun n => j.val + n - 511) (fun k => k + 511 - j.val) ?_ ?_ ?_ ?_ ?_
  · intro n hn
    rw [Finset.mem_filter, Finset.mem_range] at hn
    rw [Finset.mem_range]; omega
  · intro k hk
    rw [Finset.mem_range] at hk
    have := j.isLt
    rw [Finset.mem_filter, Finset.mem_range]; omega
  · intro n hn
    rw [Finset.mem_filter, Finset.mem_range] at hn
    show j.val + n - 511 + 511 - j.val = n
    omega
  · intro k hk
    rw [Finset.mem_range] at hk
    show j.val + (k + 511 - j.val) - 511 = k
    omega
  · intro n _; rfl

section Mask

variable (vid : IVec S64x512 32)
  (hv : ∀ (b : Fin 64) (j : Fin 512), vid (ix2 b j) = 0#32 ∨ vid (ix2 b j) = 1#32)

include hv

private theorem ent_le_one (b : Fin 64) (k : ℕ) : ent vid b k ≤ 1 := by
  unfold ent
  split
  · rename_i h
    rcases hv b ⟨k, h⟩ with e | e <;> rw [e] <;> decide
  · omega

private theorem cnt_le (b : Fin 64) (m : ℕ) : cnt vid b m ≤ m := by
  induction m with
  | zero => exact Nat.le_of_eq rfl
  | succ m ih =>
    rw [cnt_succ]
    have := ent_le_one vid hv b m
    omega

/-- The running sum at `(b, j)`, as a natural number, is the sum of the entries `0 … j`: nothing wraps. -/
private theorem csum_toNat (b : Fin 64) (j : Fin 512) : (csum vid (ix2 b j)).toNat = cnt vid b (j.val + 1) := by
  have hb : (∑ n : Fin 512,
      (if h : 511 ≤ j.val + n.val then vid (ix2 b ⟨j.val + n.val - 511, by omega⟩) else 0#32).toNat) < 2 ^ 32 := by
    rw [sum_window_eq_cnt]
    have := cnt_le vid hv b (j.val + 1)
    have := j.isLt
    omega
  rw [csum_apply, WordSum.toNat_sum _ _ hb, sum_window_eq_cnt]

end Mask

private theorem tgtOf_apply (vid : IVec S64x512 32) (b : Fin 64) (j : Fin 512) :
    tgtOf vid (ix2 b j)
      = Scalar.select (IntOp.cmpi .eq (vid (ix2 b j)) 1#32) (csum vid (ix2 b j) - 1#32) 512#32 := rfl

/-- Where the mask is zero the slot is the word 512. -/
private theorem tgtOf_zero (vid : IVec S64x512 32) (b : Fin 64) (j : Fin 512) (h : vid (ix2 b j) = 0#32) :
    tgtOf vid (ix2 b j) = 512#32 := by
  rw [tgtOf_apply, h]; rfl

/-- Where the mask is one the slot is the running sum less one. -/
private theorem tgtOf_one (vid : IVec S64x512 32) (b : Fin 64) (j : Fin 512) (h : vid (ix2 b j) = 1#32) :
    tgtOf vid (ix2 b j) = csum vid (ix2 b j) - 1#32 := by
  rw [tgtOf_apply, h]; rfl

/-- Where the mask is one the slot, as a natural number, is the number of ones strictly before the column. -/
private theorem tgtOf_one_toNat (vid : IVec S64x512 32)
    (hv : ∀ (b : Fin 64) (j : Fin 512), vid (ix2 b j) = 0#32 ∨ vid (ix2 b j) = 1#32) (b : Fin 64) (j : Fin 512)
    (h : vid (ix2 b j) = 1#32) : (tgtOf vid (ix2 b j)).toNat = cnt vid b j.val := by
  have hc := csum_toNat vid hv b j
  have hs := cnt_succ vid b j.val
  have he : ent vid b j.val = 1 := by rw [ent_fin, h]; rfl
  have hle := cnt_le vid hv b j.val
  have := j.isLt
  rw [tgtOf_one vid b j h, BitVec.toNat_sub, hc, hs, he]
  show (2 ^ 32 - 1 + (cnt vid b j.val + 1)) % 2 ^ 32 = cnt vid b j.val
  omega

private theorem toInt_of_small (x : BitVec 32) (h : x.toNat ≤ 512) : x.toInt = (x.toNat : ℤ) := by
  rw [BitVec.toInt_eq_toNat_cond, if_pos (by omega)]

/-- Every slot lies in `[0, 512]` (read as a signed word). -/
theorem tgtOf_range (vid : IVec S64x512 32)
    (hv : ∀ (b : Fin 64) (j : Fin 512), vid (ix2 b j) = 0#32 ∨ vid (ix2 b j) = 1#32) (b : Fin 64) (j : Fin 512) :
    0 ≤ (tgtOf vid (ix2 b j)).toInt ∧ (tgtOf vid (ix2 b j)).toInt ≤ 512 := by
  rcases hv b j with h | h
  · rw [tgtOf_zero vid b j h]; decide
  · have hn := tgtOf_one_toNat vid hv b j h
    have hle := cnt_le vid hv b j.val
    have := j.isLt
    rw [toInt_of_small _ (by omega), hn]
    omega

/-- Within a batch, two rows sent to the same slot below 512 are one row. -/
theorem tgtOf_inj (vid : IVec S64x512 32)
    (hv : ∀ (b : Fin 64) (j : Fin 512), vid (ix2 b j) = 0#32 ∨ vid (ix2 b j) = 1#32) (b : Fin 64) (j j' : Fin 512)
    (heq : tgtOf vid (ix2 b j) = tgtOf vid (ix2 b j')) (hlt : (tgtOf vid (ix2 b j)).toInt < 512) : j = j' := by
  have h512 : (512#32 : BitVec 32).toInt = 512 := by decide
  -- a row whose mask entry is zero goes to slot 512, so both rows have mask entry one
  have h1 : vid (ix2 b j) = 1#32 := by
    rcases hv b j with h | h
    · rw [tgtOf_zero vid b j h, h512] at hlt; omega
    · exact h
  have h1' : vid (ix2 b j') = 1#32 := by
    rcases hv b j' with h | h
    · rw [heq, tgtOf_zero vid b j' h, h512] at hlt; omega
    · exact h
  -- equal slots are equal counts of ones before the two columns
  have hc : cnt vid b j.val = cnt vid b j'.val := by
    rw [← tgtOf_one_toNat vid hv b j h1, ← tgtOf_one_toNat vid hv b j' h1', heq]
  have e1 : ent vid b j.val = 1 := by rw [ent_fin, h1]; rfl
  have e1' : ent vid b j'.val = 1 := by rw [ent_fin, h1']; rfl
  -- the count strictly increases past a one
  apply Fin.ext
  rcases Nat.lt_trichotomy j.val j'.val with hlt' | heq' | hgt'
  · have hm := cnt_mono vid b (show j.val + 1 ≤ j'.val from hlt')
    rw [cnt_succ, e1] at hm
    omega
  · exact heq'
  · have hm := cnt_mono vid b (show j'.val + 1 ≤ j.val from hgt')
    rw [cnt_succ, e1'] at hm
    omega

end Cert.Compact

end
-- ==== Proof.RefComp.lean ====
/-
  The compacted tensor at an index.

  The scatter's index vectors are `(b, slot b j)`: the row component is the batch number (the wrap-around of a negative
  index is never taken) and the slot component is the slot itself (a slot is never negative for a mask of zeros and
  ones).  With the slots in range pairwise distinct, entry `(b, i, e)` of the compacted tensor is feature `e` of the source
  row sent to slot `i`, or zero when no row is.
-/
import proofs.«430234_j70746701300093_3_alg».proof.Proof.RefRun
import proofs.«430234_j70746701300093_3_alg».proof.Proof.Scatter
import proofs.«430234_j70746701300093_3_alg».proof.Proof.Tgt
import Idealize.ShloMosaic.PureOps.Ideal
import Idealize.ShloMosaic.Lib.ValueIdx
import Idealize.ShloMosaic.PureOps.Ideal.Laws
import Idealize.ShloMosaic.Lib.Pipeline.Value
import Idealize.ShloMosaic.Lib.StableHlo.Predicate

noncomputable section

namespace Cert.ReferenceIdeal.Hand

open Cert.ReferenceIdeal Cert.ReferenceIdeal.Gen Idealize.ShloMosaic Idealize.ShloMosaic.ValueIdx

/-- A word whose signed value is not negative is kept by the wrap-around select. -/
private theorem wrap_of_nonneg (t k : BitVec 32) (h : 0 ≤ t.toInt) :
    Scalar.select (IntOp.cmpi .slt t 0#32) (IntOp.addi t k) t = t := by
  have hs : t.slt 0#32 = false := by
    rw [BitVec.slt]
    have : (0#32 : BitVec 32).toInt = 0 := by decide
    rw [this]
    exact decide_eq_false (by omega)
  show Scalar.select (BitVec.ofBool (t.slt 0#32)) (IntOp.addi t k) t = t
  rw [hs]
  exact select_zero _ _

/-- The row component at `(b, j)` is the word `b`. -/
private theorem rows_apply (b : Fin 64) (j : Fin 512) : rows (ix2 b j) = BitVec.ofNat 32 b.val := by
  have hb := b.isLt
  have h0 : 0 ≤ (BitVec.ofNat 32 b.val).toInt := by
    rw [StableHlo.Predicate.toInt_ofNat_small b.val (by omega)]; omega
  exact wrap_of_nonneg (BitVec.ofNat 32 b.val) 64#32 h0

/-- The slot component at `(b, j)` is the slot. -/
private theorem cols_apply (vid : IVec S64x512 32) (b : Fin 64) (j : Fin 512)
    (h : 0 ≤ (Cert.Compact.tgtOf vid (ix2 b j)).toInt) : cols vid (ix2 b j) = Cert.Compact.tgtOf vid (ix2 b j) :=
  wrap_of_nonneg (Cert.Compact.tgtOf vid (ix2 b j)) 512#32 h

/-- Component `0` of the index vector at `(b, j)` is the row component. -/
private theorem idxOf_zero (vid : IVec S64x512 32) (b : Fin 64) (j : Fin 512) :
    idxOf vid (ix3 b j (0 : Fin 2)) = rows (ix2 b j) := by
  unfold idxOf
  rw [concatenate_pair_apply_left (2 : Fin S64x512x2.rank) _ _ concatenates_S64x512x1_S64x512x1_S64x512x2_d2
    (ix3 b j (0 : Fin 2)) rfl (ix3 b j (0 : Fin 1)) (by
      intro a
      match a with
      | ⟨0, _⟩ => rfl
      | ⟨1, _⟩ => rfl
      | ⟨2, _⟩ => rfl)]
  rfl

/-- Component `1` of the index vector at `(b, j)` is the slot component. -/
private theorem idxOf_one (vid : IVec S64x512 32) (b : Fin 64) (j : Fin 512) :
    idxOf vid (ix3 b j (1 : Fin 2)) = cols vid (ix2 b j) := by
  unfold idxOf
  rw [concatenate_pair_apply_right (2 : Fin S64x512x2.rank) _ _ concatenates_S64x512x1_S64x512x1_S64x512x2_d2
    (ix3 b j (1 : Fin 2)) rfl rfl (ix3 b j (0 : Fin 1)) (by
      intro a ha
      match a with
      | ⟨0, _⟩ => rfl
      | ⟨1, _⟩ => rfl
      | ⟨2, _⟩ => exact absurd rfl ha) rfl]
  exact broadcastInDim_apply _ _ _ _ (ix2 b j) (by
    intro a
    match a with
    | ⟨0, _⟩ => rfl
    | ⟨1, _⟩ => rfl)

/-- The compacted tensor at `(b, i, e)`. -/
theorem comp_apply (x : FVec Ideal S64x512x768 .f32) (vid : IVec S64x512 32)
    (hv : ∀ (b : Fin 64) (j : Fin 512), vid (ix2 b j) = 0#32 ∨ vid (ix2 b j) = 1#32)
    (b : Fin 64) (i : Fin 512) (e : Fin 768) :
    comp (F := Ideal) x vid (ix3 b i e)
      = if h : ∃ j : Fin 512, (Cert.Compact.tgtOf vid (ix2 b j)).toInt = (i.val : Int) then x (ix3 b h.choose e)
        else (0 : EReal) := by
  have hd : scatter_S64x512x768_S64x512x2_S64x512x768_2_01_01_2 = Cert.Compact.dComp := rfl
  have hrow : ∀ (b : Fin 64) (j : Fin 512), (idxOf vid (ix3 b j (0 : Fin 2))).toInt = (b.val : Int) := by
    intro b j
    have hb := b.isLt
    rw [idxOf_zero, rows_apply, StableHlo.Predicate.toInt_ofNat_small b.val (by omega)]
  have hcol : ∀ (b : Fin 64) (j : Fin 512), idxOf vid (ix3 b j (1 : Fin 2)) = Cert.Compact.tgtOf vid (ix2 b j) := by
    intro b j
    rw [idxOf_one, cols_apply vid b j (Cert.Compact.tgtOf_range vid hv b j).1]
  have hz : (broadcastInDim S64x512x768 ![] bcast_S_S64x512x768 (constant (F := Ideal) S_ .f32 0x00000000#32))
      (ix3 b i e) = (0 : EReal) := Ideal.ofBits_zero_f32
  unfold comp
  rw [hd, Cert.Compact.compact_apply x _ (idxOf vid) (Cert.Compact.tgtOf vid) hrow hcol
    (fun b j => (Cert.Compact.tgtOf_range vid hv b j).1) (Cert.Compact.tgtOf_inj vid hv) b i e]
  by_cases h : ∃ j : Fin 512, (Cert.Compact.tgtOf vid (ix2 b j)).toInt = (i.val : Int)
  · rw [dif_pos h, dif_pos h]
  · rw [dif_neg h, dif_neg h]
    exact hz

end Cert.ReferenceIdeal.Hand

end
-- ==== Proof.OneHot.lean ====
/-
  A sum against a one-hot indicator picks one term.

  Over the extended reals `x * 0 = 0` and `x * 1 = x` for every `x`, infinite ones included, so a finite sum of
  `f j * [P j]` in which at most one `j` satisfies `P` is `f` at that `j`, or zero when there is none.
-/
import Mathlib.Data.EReal.Basic
import Mathlib.Algebra.BigOperators.Group.Finset.Basic
import Mathlib.Algebra.BigOperators.Fin

noncomputable section

namespace Cert.Compact

/-- When `P j0` holds and `P` holds of at most one index, every other term is `f j * 0 = 0` and the `j0` term is
    `f j0 * 1 = f j0`. -/
private theorem sum_pick {n : Nat} (f : Fin n → EReal) (P : Fin n → Prop) [DecidablePred P]
    (huniq : ∀ j j', P j → P j' → j = j') (j0 : Fin n) (h0 : P j0) :
    (∑ j : Fin n, f j * (if P j then (1 : EReal) else 0)) = f j0 := by
  rw [Finset.sum_eq_single j0]
  · rw [if_pos h0, mul_one]
  · intro j _ hj
    have hn : ¬ P j := fun hp => hj (huniq j j0 hp h0)
    rw [if_neg hn, mul_zero]
  · intro hj
    exact absurd (Finset.mem_univ j0) hj

/-- When `P` holds of no index every term is `f j * 0 = 0`. -/
private theorem sum_nothing {n : Nat} (f : Fin n → EReal) (P : Fin n → Prop) [DecidablePred P]
    (hnone : ∀ j, ¬ P j) :
    (∑ j : Fin n, f j * (if P j then (1 : EReal) else 0)) = 0 := by
  refine Finset.sum_eq_zero fun j _ => ?_
  rw [if_neg (hnone j), mul_zero]

/-- The sum of `f j * [P j]` with `P` holding of at most one `j`. -/
theorem sum_mul_indicator {n : Nat} (f : Fin n → EReal) (P : Fin n → Prop) [DecidablePred P]
    (huniq : ∀ j j', P j → P j' → j = j') :
    (∑ j : Fin n, f j * (if P j then (1 : EReal) else 0)) = if h : ∃ j, P j then f h.choose else 0 := by
  by_cases h : ∃ j, P j
  · rw [dif_pos h]
    exact sum_pick f P huniq h.choose h.choose_spec
  · rw [dif_neg h]
    exact sum_nothing f P fun j hj => h ⟨j, hj⟩

/-- The same with the selected value named. -/
theorem sum_mul_indicator_of {n : Nat} (f : Fin n → EReal) (P : Fin n → Prop) [DecidablePred P]
    (huniq : ∀ j j', P j → P j' → j = j') (j0 : Fin n) (h0 : P j0) :
    (∑ j : Fin n, f j * (if P j then (1 : EReal) else 0)) = f j0 :=
  sum_pick f P huniq j0 h0

/-- And with nothing selected. -/
theorem sum_mul_indicator_none {n : Nat} (f : Fin n → EReal) (P : Fin n → Prop) [DecidablePred P]
    (hnone : ∀ j, ¬ P j) :
    (∑ j : Fin n, f j * (if P j then (1 : EReal) else 0)) = 0 :=
  sum_nothing f P hnone

end Cert.Compact

end
-- ==== Proof.Select.lean ====
/-
  Selecting before or after the linear map.

  Summing the logits of the source rows against the indicator "sent to slot `i`" is the logit of the one row
  sent there (or zero): the selection commutes with the dot product because at most one row is selected and
  `x * 0 = 0`, `x * 1 = x` hold for every extended real.
-/
import Mathlib.Data.EReal.Basic
import Mathlib.Algebra.BigOperators.Group.Finset.Basic
import Mathlib.Algebra.BigOperators.Fin
import proofs.«430234_j70746701300093_3_alg».proof.Proof.OneHot

noncomputable section

namespace Cert.Compact

/-- A 32-bit word is the word of a slot number below 512 exactly when it reads, signed, as that number. -/
private theorem eq_slot_iff (v : BitVec 32) (i : Fin 512) :
    v = BitVec.ofNat 32 i.val ↔ v.toInt = (i.val : Int) := by
  have hlt := i.isLt
  have hn : (BitVec.ofNat 32 i.val).toNat = i.val := by
    rw [BitVec.toNat_ofNat]; omega
  have hi : (BitVec.ofNat 32 i.val).toInt = (i.val : Int) := by
    rw [BitVec.toInt_eq_toNat_of_lt (by rw [hn]; omega), hn]
  constructor
  · rintro rfl; exact hi
  · intro h; exact BitVec.eq_of_toInt_eq (h.trans hi.symm)

/-- At most one row is sent to a given slot: two rows sent there carry the same word, which reads below 512. -/
private theorem slot_unique (t : Fin 512 → BitVec 32) (i : Fin 512)
    (hinj : ∀ j j', t j = t j' → (t j).toInt < 512 → j = j') :
    ∀ j j', t j = BitVec.ofNat 32 i.val → t j' = BitVec.ofNat 32 i.val → j = j' := by
  intro j j' hj hj'
  refine hinj j j' (hj.trans hj'.symm) ?_
  rw [(eq_slot_iff (t j) i).1 hj]
  have hlt := i.isLt
  omega

/-- The selection of a single value per row, at any slot. -/
private theorem select_at (x : Fin 512 → EReal) (t : Fin 512 → BitVec 32) (i : Fin 512)
    (hinj : ∀ j j', t j = t j' → (t j).toInt < 512 → j = j') :
    (∑ j : Fin 512, x j * (if t j = BitVec.ofNat 32 i.val then (1 : EReal) else 0))
      = if h : ∃ j : Fin 512, (t j).toInt = (i.val : Int) then x h.choose else 0 := by
  by_cases h : ∃ j : Fin 512, (t j).toInt = (i.val : Int)
  · rw [dif_pos h]
    exact sum_mul_indicator_of x (fun j => t j = BitVec.ofNat 32 i.val) (slot_unique t i hinj) h.choose
      ((eq_slot_iff _ i).2 h.choose_spec)
  · rw [dif_neg h]
    exact sum_mul_indicator_none x (fun j => t j = BitVec.ofNat 32 i.val)
      fun j hj => h ⟨j, (eq_slot_iff _ i).1 hj⟩

/-- Selecting rows of logits is taking logits of the selected row. -/
theorem select_sum (x : Fin 512 → Fin 768 → EReal) (w : Fin 768 → EReal) (t : Fin 512 → BitVec 32) (i : Fin 512)
    (hinj : ∀ j j', t j = t j' → (t j).toInt < 512 → j = j') :
    (∑ j : Fin 512, (∑ e : Fin 768, x j e * w e) * (if t j = BitVec.ofNat 32 i.val then (1 : EReal) else 0))
      = ∑ e : Fin 768, (if h : ∃ j : Fin 512, (t j).toInt = (i.val : Int) then x h.choose e else 0) * w e := by
  by_cases h : ∃ j : Fin 512, (t j).toInt = (i.val : Int)
  · -- One row is sent to the slot: the left side is that row's logit, and so is the right side term by term.
    simp only [dif_pos h]
    exact sum_mul_indicator_of (fun j => ∑ e : Fin 768, x j e * w e) (fun j => t j = BitVec.ofNat 32 i.val)
      (slot_unique t i hinj) h.choose ((eq_slot_iff _ i).2 h.choose_spec)
  · -- No row is sent to the slot: both sides are zero.
    simp only [dif_neg h, zero_mul, Finset.sum_const_zero]
    exact sum_mul_indicator_none (fun j => ∑ e : Fin 768, x j e * w e) (fun j => t j = BitVec.ofNat 32 i.val)
      fun j hj => h ⟨j, (eq_slot_iff _ i).1 hj⟩

/-- Selecting the row sent to slot 0. -/
theorem select_row (x : Fin 512 → EReal) (t : Fin 512 → BitVec 32)
    (hinj : ∀ j j', t j = t j' → (t j).toInt < 512 → j = j') :
    (∑ j : Fin 512, x j * (if t j = 0#32 then (1 : EReal) else 0))
      = if h : ∃ j : Fin 512, (t j).toInt = (((0 : Fin 512)).val : Int) then x h.choose else 0 :=
  -- The zero word is the word of slot number 0.
  select_at x t 0 hinj

end Cert.Compact

end
-- ==== Proof.Bridge.lean ====
/-
  The two programs compute the same results.

  Index by index: the kernel's logits at `(b, i, k)` sum the logits of the source rows of batch `b` against the
  indicator "sent to slot `i`"; the reference's are the logits of row `(b, i)` of the compacted tensor, which is the
  source row sent to slot `i` or zero.  The slots in range are pairwise distinct, so the sum selects that one row
  (or nothing), and selection commutes with the dot product.  The pooler's input is the same with slot 0, and both
  programs apply the same tail to it.
-/
import proofs.«430234_j70746701300093_3_alg».proof.Proof.KRun
import proofs.«430234_j70746701300093_3_alg».proof.Proof.RefRun
import proofs.«430234_j70746701300093_3_alg».proof.Proof.RefAte
import proofs.«430234_j70746701300093_3_alg».proof.Proof.RefComp
import proofs.«430234_j70746701300093_3_alg».proof.Proof.Select
import proofs.«430234_j70746701300093_3_alg».proof.Proof.Tgt
import Idealize.ShloMosaic.Lib.ValueLayout
import Idealize.ShloMosaic.Lib.Pipeline.Value

noncomputable section

open Idealize.ShloMosaic Idealize.ShloMosaic.TcCoe Idealize.SL.Sem Idealize.ShloMosaic.ValueIdx

namespace Cert.Bridge

open Cert.KernelIdeal Cert.KernelIdeal.Gen Cert.KernelIdeal.Val

variable (m : (ℓ : Loc nD τ sig) → Buf (Elt Ideal) ℓ)

/-- The mask as launched, at its literal type. -/
abbrev vidOf (c : Dev nD) : IVec S64x512 32 := m ((c.tc : Thread nD τ).loc main_arg1)

/-- The slots array the region stages, at `(b, 0, j)`, is the slot of source row `j` of batch `b`. -/
theorem tarr_apply (c : Dev nD) (b : Fin 64) (j : Fin 512) :
    tarr m c (ix3 b (0 : Fin 1) j) = Cert.Compact.tgtOf (vidOf m c) (ix2 b j) := by
  show (V m c main_v6 : S64x1x512.Idx → BitVec 32) _ = _
  rw [V_main_v6]
  refine shapeCast_apply _ _ _ _ ?_
  rw [Shape.rowMajor_val_two, Shape.rowMajor_val_three]
  show b.val * 512 + j.val = (b.val * 1 + 0) * 512 + j.val
  omega

/-- Within a batch the slots below 512 are pairwise distinct. -/
theorem slot_inj (c : Dev nD)
    (hv : ∀ (b : Fin 64) (j : Fin 512), vidOf m c (ix2 b j) = 0#32 ∨ vidOf m c (ix2 b j) = 1#32) (b : Fin 64) :
    ∀ j j' : Fin 512, Cert.Compact.tgtOf (vidOf m c) (ix2 b j) = Cert.Compact.tgtOf (vidOf m c) (ix2 b j')
      → (Cert.Compact.tgtOf (vidOf m c) (ix2 b j)).toInt < 512 → j = j' :=
  fun j j' => Cert.Compact.tgtOf_inj (vidOf m c) hv b j j'

/-- THE LOGITS AGREE: the reference's logits of the compacted tensor are the kernel's selected logits. -/
theorem ate_eq (c : Dev nD)
    (hv : ∀ (b : Fin 64) (j : Fin 512), vidOf m c (ix2 b j) = 0#32 ∨ vidOf m c (ix2 b j) = 1#32) :
    Cert.ReferenceIdeal.Hand.ate (F := Ideal) (m ((c.tc : Thread nD τ).loc main_arg0)) (vidOf m c)
        (m ((c.tc : Thread nD τ).loc main_arg2)) (m ((c.tc : Thread nD τ).loc main_arg3))
      = ateK m c := by
  funext y
  obtain ⟨b, i, k, rfl⟩ : ∃ (b : Fin 64) (i : Fin 512) (k : Fin 6), y = ix3 b i k := ⟨y 0, y 1, y 2, eq_ix3 y⟩
  rw [Cert.ReferenceIdeal.Hand.ate_apply]
  simp only [Cert.ReferenceIdeal.Hand.comp_apply _ _ hv]
  unfold ateK
  rw [transpose_ix3_021_apply]
  show _ = (∑ j : Fin 512, (∑ e : Fin 768, xarr m c (ix3 b j e) * warr m c (ix2 e k))
      * (if tarr m c (ix3 b (0 : Fin 1) j) = BitVec.ofNat 32 i.val then (1 : EReal) else 0))
    + barr m c (ix1 k)
  simp only [tarr_apply m c]
  rw [Cert.Compact.select_sum (fun j e => xarr m c (ix3 b j e)) (fun e => warr m c (ix2 e k))
    (fun j => Cert.Compact.tgtOf (vidOf m c) (ix2 b j)) i (slot_inj m c hv b)]
  have hx : xarr m c = m ((c.tc : Thread nD τ).loc main_arg0) := V_main_arg0 m c
  have hw : warr m c = m ((c.tc : Thread nD τ).loc main_arg2) := V_main_arg2 m c
  have hb : barr m c = m ((c.tc : Thread nD τ).loc main_arg3) := V_main_arg3 m c
  rw [hx, hw, hb]
  by_cases h : ∃ j : Fin 512, (Cert.Compact.tgtOf (vidOf m c) (ix2 b j)).toInt = (i.val : Int)
  · simp only [dif_pos h]
  · simp only [dif_neg h]

/-- THE POOLER'S INPUTS AGREE: row 0 of the compacted tensor is the kernel's selected row. -/
theorem row0_eq (c : Dev nD)
    (hv : ∀ (b : Fin 64) (j : Fin 512), vidOf m c (ix2 b j) = 0#32 ∨ vidOf m c (ix2 b j) = 1#32) :
    Cert.ReferenceIdeal.Hand.row0 (F := Ideal) (m ((c.tc : Thread nD τ).loc main_arg0)) (vidOf m c)
      = shapeCast S64x768 (G5 (xarr m c) (tarr m c)) shapeCasts_S64x1x768_S64x768 := by
  funext y
  obtain ⟨b, e, rfl⟩ : ∃ (b : Fin 64) (e : Fin 768), y = ix2 b e := ⟨y 0, y 1, eq_ix2 y⟩
  rw [Cert.ReferenceIdeal.Hand.row0_apply, Cert.ReferenceIdeal.Hand.comp_apply _ _ hv]
  have hsc : shapeCast S64x768 (G5 (xarr m c) (tarr m c)) shapeCasts_S64x1x768_S64x768 (ix2 b e)
      = G5 (xarr m c) (tarr m c) (ix3 b (0 : Fin 1) e) := by
    refine shapeCast_apply _ _ _ _ ?_
    rw [Shape.rowMajor_val_two, Shape.rowMajor_val_three]
    show (b.val * 1 + 0) * 768 + e.val = b.val * 768 + e.val
    omega
  rw [hsc]
  show _ = ∑ j : Fin 512, xarr m c (ix3 b j e)
      * (if tarr m c (ix3 b (0 : Fin 1) j) = 0#32 then (1 : EReal) else 0)
  simp only [tarr_apply m c]
  rw [Cert.Compact.select_row (fun j => xarr m c (ix3 b j e))
    (fun j => Cert.Compact.tgtOf (vidOf m c) (ix2 b j)) (slot_inj m c hv b)]
  have hx : xarr m c = m ((c.tc : Thread nD τ).loc main_arg0) := V_main_arg0 m c
  rw [hx]
  by_cases h : ∃ j : Fin 512, (Cert.Compact.tgtOf (vidOf m c) (ix2 b j)).toInt = (((0 : Fin 512)).val : Int)
  · simp only [dif_pos h]
  · simp only [dif_neg h]

/-- THE POLARITY LOGITS AGREE: the same tail applied to equal inputs. -/
theorem apc_eq (c : Dev nD)
    (hv : ∀ (b : Fin 64) (j : Fin 512), vidOf m c (ix2 b j) = 0#32 ∨ vidOf m c (ix2 b j) = 1#32) :
    Cert.ReferenceIdeal.Hand.apc (F := Ideal) (m ((c.tc : Thread nD τ).loc main_arg0)) (vidOf m c)
        (m ((c.tc : Thread nD τ).loc main_arg4)) (m ((c.tc : Thread nD τ).loc main_arg5))
        (m ((c.tc : Thread nD τ).loc main_arg6)) (m ((c.tc : Thread nD τ).loc main_arg7))
      = apcK m c := by
  unfold Cert.ReferenceIdeal.Hand.apc apcK
  rw [row0_eq m c hv]

end Cert.Bridge

end
-- ==== Proof.lean ====
/-
  The certificate: a masked sequence compaction followed by a classifier head and a pooler, as a Pallas kernel
  against its jnp reference, over the extended reals.

  Both programs send source row `j` of batch `b` to the slot "number of ones in the mask up to `j`, less one" when
  the mask is one there, and drop it otherwise.  The reference scatters the rows into a zero tensor, applies the
  classifier to every slot and the pooler to slot 0.  The kernel applies the classifier to every source row first and
  then sums the logits against the one-hot matrix "row `j` goes to slot `i`"; it selects slot 0's row by the same kind
  of sum.  For a mask of zeros and ones the slots in range are pairwise distinct, so each such sum has at most one
  nonzero term, and `x * 0 = 0`, `x * 1 = x` for every extended real: the two results are equal index by index.
  The precondition's last conjunct says the mask holds zeros and ones; the finiteness conjuncts are not used.

  The three frames: the two kernel programs' are the generated frame certificates; the reference's is its run
  with the results dropped.  The idealization rewrote nothing, so `preserves` is trivial.
-/
import proofs.«430234_j70746701300093_3_alg».proof.Defs
import proofs.«430234_j70746701300093_3_alg».proof.Proof.Gen.Kernel
import proofs.«430234_j70746701300093_3_alg».proof.Proof.Gen.Kernel.Frame
import proofs.«430234_j70746701300093_3_alg».proof.Proof.Gen.KernelIdeal
import proofs.«430234_j70746701300093_3_alg».proof.Proof.Gen.KernelIdeal.Frame
import proofs.«430234_j70746701300093_3_alg».proof.Proof.Gen.ReferenceIdeal
import proofs.«430234_j70746701300093_3_alg».proof.Proof.Gen.Pre_finite_inputs
import proofs.«430234_j70746701300093_3_alg».proof.Proof.PreDecode
import proofs.«430234_j70746701300093_3_alg».proof.Proof.RefRun
import proofs.«430234_j70746701300093_3_alg».proof.Proof.KRun
import proofs.«430234_j70746701300093_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2)
    (Cert.ReferenceIdeal.Hand.run (F := Ideal) m ρ)

theorem preserves : Cert.preserves_Kernel_KernelIdeal := trivial

/-- Both programs end with the kernel's two result functions: the reference's results are those by the
    index-by-index equalities, the mask being zeros and ones by the precondition. -/
theorem algebraic : Cert.algebraic_KernelIdeal_ReferenceIdeal := by
  intro m ρ m' ρ' hpre hagree
  have hv : ∀ (c : Dev Cert.KernelIdeal.nD) (b : Fin 64) (j : Fin 512),
      Cert.Bridge.vidOf m c (ValueIdx.ix2 b j) = 0#32 ∨ Cert.Bridge.vidOf m c (ValueIdx.ix2 b j) = 1#32 :=
    fun c b j => Cert.Pre_finite_inputs.Decode.mask_of_pre _ _ _ _ _ _ _ _ (hpre c) b j
  refine ⟨fun c => Cert.KernelIdeal.Val.ateK m c, fun c => Cert.KernelIdeal.Val.apcK m c,
    Cert.KernelIdeal.Val.run m ρ, ?_⟩
  refine (θ_run Cert.ReferenceIdeal.defs _ _).mono (fun _ h c => ?_)
    (Cert.ReferenceIdeal.Hand.run (F := Ideal) m' ρ')
  obtain ⟨h1, h2, hargs⟩ := h c
  obtain ⟨a0, a1, a2, a3, a4, a5, a6, a7⟩ := hagree c
  refine ⟨h1.trans ?_, h2.trans ?_, hargs⟩
  · rw [a0, a1, a2, a3]
    exact Cert.Bridge.ate_eq m c (hv c)
  · rw [a0, a1, a4, a5, a6, a7]
    exact Cert.Bridge.apc_eq m c (hv c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
